-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S262144 : Shape := ⟨1, ![262144]⟩
abbrev S64x4096 : Shape := ⟨2, ![64, 4096]⟩
abbrev S4096x64 : Shape := ⟨2, ![4096, 64]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S262144 : S_.BroadcastsInDim S262144 (![] : Fin 0 → Fin S262144.rank)
  reducesTo_S262144_S_d0 : S262144.ReducesTo [0] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : IVec S4096x4096 32) (main_arg5 : FVec F S4096 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_c_8 : IVec S_ 32 := constantI S_ 32 0#32
  let main_v24 : IVec S4096x4096 32 := broadcastInDim S4096x4096 ![] bcast_S_S4096x4096 main_c_8
  let main_v25 : IVec S4096x4096 1 := cmpi .sge main_arg1 main_v24
  let main_c_9 : IVec S_ 32 := constantI S_ 32 16#32
  let main_v26 : IVec S4096x4096 32 := broadcastInDim S4096x4096 ![] bcast_S_S4096x4096 main_c_9
  let main_v27 : IVec S4096x4096 1 := cmpi .slt main_arg1 main_v26
  let main_v28 : IVec S4096x4096 1 := andi main_v25 main_v27
  let main_c_10 : IVec S_ 1 := constantI S_ 1 1#1
  let main_v29 : IVec S_ 1 := (fun x v => Host.reduce IntOp.andi x v reducesTo_S4096x4096_S_d0_1 h_S_) main_v28 main_c_10
  let main_v30 : IVec S_ 1 := andi main_v23 main_v29
  main_v30

def fn {F : FTy → Type} [FloatOps F] (main_arg0 : FVec F S8192x4096 .f32) (main_arg1 : IVec S4096x4096 32) (main_arg2 : FVec F S262144 .f32) (main_arg3 : FVec F S64x4096 .f32) (main_arg4 : FVec F S4096x64 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S64x4096 .f32 := Host.absf main_arg3
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x64 .f32 := Host.absf main_arg4
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg1 main_arg5 main_v13 main_v16
-- ==== Kernel.lean ====
abbrev S8192x4096 : Shape := ⟨2, ![8192, 4096]⟩
abbrev S4096x4096 : Shape := ⟨2, ![4096, 4096]⟩
abbrev S262144 : Shape := ⟨1, ![262144]⟩
abbrev S64x4096 : Shape := ⟨2, ![64, 4096]⟩
abbrev S4096x64 : Shape := ⟨2, ![4096, 64]⟩
abbrev S4096 : Shape := ⟨1, ![4096]⟩
abbrev S1x4096 : Shape := ⟨2, ![1, 4096]⟩
abbrev S1024x512 : Shape := ⟨2, ![1024, 512]⟩
abbrev S1024x64 : Shape := ⟨2, ![1024, 64]⟩
abbrev S64x512 : Shape := ⟨2, ![64, 512]⟩
abbrev S1x1024 : Shape := ⟨2, ![1, 1024]⟩
abbrev S1024x1024 : Shape := ⟨2, ![1024, 1024]⟩
abbrev S1024x8 : Shape := ⟨2, ![1024, 8]⟩
abbrev S1024x1 : Shape := ⟨2, ![1024, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S262144, .f32⟩
  | .hbm, ⟨3, _⟩ => ⟨S64x4096, .f32⟩
  | .hbm, ⟨4, _⟩ => ⟨S4096x64, .f32⟩
  | .hbm, ⟨5, _⟩ => ⟨S4096, .f32⟩
  | .hbm, ⟨6, _⟩ => ⟨S4096x64, .f32⟩
  | .hbm, ⟨7, _⟩ => ⟨S1x4096, .f32⟩
  | .hbm, ⟨8, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1024x64, .f32⟩
  | .local _ .vmem, ⟨5, _⟩ => ⟨S1024x64, .f32⟩
  | .local _ .vmem, ⟨6, _⟩ => ⟨S64x512, .f32⟩
  | .local _ .vmem, ⟨7, _⟩ => ⟨S64x512, .f32⟩
  | .local _ .vmem, ⟨8, _⟩ => ⟨S1024x64, .f32⟩
  | .local _ .vmem, ⟨9, _⟩ => ⟨S1024x64, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 2 → Nat :=
  let c0_18 : Index := 0#32
  let arg2 : BitVec 32 := BitVec.ofNat 32 (i 2).val
  let c8_i32_17 : BitVec 32 := 8#32
  let v65 : BitVec 32 := Scalar.muli arg2 c8_i32_17
  let v66 : Index := Scalar.indexCast v65
  ![0, v66.toNat]
def k0_cond2 (i : grid0.Coords) : BitVec 1 :=
  let arg2 : BitVec 32 := BitVec.ofNat 32 (i 2).val
  let c7_i32_40 : BitVec 32 := 7#32
  let v159 : BitVec 1 := Scalar.cmpi .eq arg2 c7_i32_40
  let v160 : BitVec 32 := Scalar.extui v159
  let c0_i32_41 : BitVec 32 := 0#32
  let v161 : BitVec 1 := Scalar.cmpi .ne v160 c0_i32_41
  v161

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S262144_S4096x64 : S262144.ShapeCasts S4096x64
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  h_S1024x8 : 0 < S1024x8.numel
  shapeCasts_S1024x8_S1024x8 : S1024x8.ShapeCasts S1024x8
  iota_S1024x512_d1_w32 : S1024x512.Iotas .tc 32 [1]
  slices_S1024x8_o0_0_S1024x1 : S1024x8.Slices ![0, 0] S1024x1
  shapeCasts_S1024x1_S1024x1 : S1024x1.ShapeCasts S1024x1
  broadcasts_S1024x1_S1024x512 : S1024x1.Broadcasts S1024x512
  slices_S1024x8_o0_1_S1024x1 : S1024x8.Slices ![0, 1] S1024x1
  slices_S1024x8_o0_2_S1024x1 : S1024x8.Slices ![0, 2] S1024x1
  slices_S1024x8_o0_3_S1024x1 : S1024x8.Slices ![0, 3] S1024x1
  slices_S1024x8_o0_4_S1024x1 : S1024x8.Slices ![0, 4] S1024x1
  slices_S1024x8_o0_5_S1024x1 : S1024x8.Slices ![0, 5] S1024x1
  slices_S1024x8_o0_6_S1024x1 : S1024x8.Slices ![0, 6] S1024x1
  slices_S1024x8_o0_7_S1024x1 : S1024x8.Slices ![0, 7] S1024x1
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x64_S64x512_S1024x512_1_0_0_1_n_n_wf : DotDims.WF S1024x64 S64x512 S1024x512 [1] [0] [0] [1] [] []
  dot_S1024x512_S1024x512_S1024x1024_1_1_0_0_n_n_wf : DotDims.WF S1024x512 S1024x512 S1024x1024 [1] [1] [0] [0] [] []
  hrank0 : 0 < grid0.rank
  k0_off1_inb : ∀ i : grid0.Coords, ∀ a, (k0_off1 i) a + S1024x8.size a ≤ S1024x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S4096x64.size a
  hwx0_2 : ∀ i : grid0.Coords, EltTy.bits .f32 = 32 ∨ (Rect.block (s := S4096x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x4096.size a
  hwx0_3 : ∀ i : grid0.Coords, EltTy.bits .f32 = 32 ∨ (Rect.block (s := S64x4096) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S4096x64.size a
  hwx0_4 : ∀ i : grid0.Coords, EltTy.bits .f32 = 32 ∨ (Rect.block (s := S4096x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x4096.size a
  hwx0_6 : ∀ i : grid0.Coords, EltTy.bits .f32 = 32 ∨ (Rect.block (s := S8192x4096) S1024x1024.size (cc0_transform_6 i) (hinb0_6 i)).WholeWords (EltTy.packing .f32)

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S262144 : Shape := ⟨1, ![262144]⟩
abbrev S64x4096 : Shape := ⟨2, ![64, 4096]⟩
abbrev S4096x64 : Shape := ⟨2, ![4096, 64]⟩
abbrev S4096 : Shape := ⟨1, ![4096]⟩
abbrev S16 : Shape := ⟨1, ![16]⟩
abbrev S16777216 : Shape := ⟨1, ![16777216]⟩
abbrev S_ : Shape := ⟨0, ![]⟩
abbrev S16777216x1 : Shape := ⟨2, ![16777216, 1]⟩
abbrev S262144x64 : Shape := ⟨2, ![262144, 64]⟩
abbrev S262144x1 : Shape := ⟨2, ![262144, 1]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S262144, .f32⟩
  | .hbm, ⟨3, _⟩ => ⟨S64x4096, .f32⟩
  | .hbm, ⟨4, _⟩ => ⟨S4096x64, .f32⟩
  | .hbm, ⟨5, _⟩ => ⟨S4096, .f32⟩
  | .hbm, ⟨6, _⟩ => ⟨S16, .f32⟩
  | .hbm, ⟨7, _⟩ => ⟨S16777216, .i32⟩
  | .hbm, ⟨8, _⟩ => ⟨S_, .i32⟩
  | .hbm, ⟨9, _⟩ => ⟨S16777216, .i32⟩
  | .hbm, ⟨10, _⟩ => ⟨S16777216, .i1⟩
  | .hbm, ⟨11, _⟩ => ⟨S_, .i32⟩
  | .hbm, ⟨12, _⟩ => ⟨S16777216, .i32⟩
  | .hbm, ⟨13, _⟩ => ⟨S16777216, .i32⟩
  | .hbm, ⟨14, _⟩ => ⟨S16777216, .i32⟩
  | .hbm, ⟨15, _⟩ => ⟨S16777216x1, .i32⟩
  | .hbm, ⟨16, _⟩ => ⟨S16777216, .f32⟩
  | .hbm, ⟨17, _⟩ => ⟨S262144x64, .f32⟩
  | .hbm, ⟨18, _⟩ => ⟨S262144x1, .f32⟩
  | .hbm, ⟨19, _⟩ => ⟨S262144x64, .f32⟩
  | .hbm, ⟨20, _⟩ => ⟨S262144x64, .f32⟩
  | .hbm, ⟨21, _⟩ => ⟨S4096x4096, .f32⟩
  | .hbm, ⟨22, _⟩ => ⟨S8192x4096, .f32⟩
  | .hbm, ⟨23, _⟩ => ⟨S4096x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  shapeCasts_S4096x4096_S16777216 : S4096x4096.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S262144x64 : S16777216.ShapeCasts S262144x64
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S16_S16777216x1_S16777216_n_0_n_n_0_1_1_wf : GatherDims.WF S16 S16777216x1 S16777216 [] [0] [] [0] [] 1 ![1]
  dot_S8192x4096_S4096x4096_S8192x4096_1_1_0_0_n_n_wf : DotDims.WF S8192x4096 S4096x4096 S8192x4096 [1] [1] [0] [0] [] []
  dot_S4096x64_S64x4096_S4096x4096_1_0_0_1_n_n_wf : DotDims.WF S4096x64 S64x4096 S4096x4096 [1] [0] [0] [1] [] []

variable [Facts₀]

def gather_S16_S16777216x1_S16777216_n_0_n_n_0_1_1 : GatherDims S16 S16777216x1 S16777216 where
  offsetDims := []
  collapsedSliceDims := [0]
  operandBatchingDims := []
  startIndicesBatchingDims := []
  startIndexMap := [0]
  indexVectorDim := 1
  sliceSizes := ![1]
  wf := gather_S16_S16777216x1_S16777216_n_0_n_n_0_1_1_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.Spec.lean ====
/-
  A linear layer with a 4-bit quantised weight and a low-rank correction, as ONE function of the six argument arrays.

  The weight's entry (o, i) is the NF4 codebook value of the code `q[o, i]` times the scale of the run of 64
  consecutive entries (in row-major order) that holds it: run number `o * 64 + i / 64`. The low-rank correction's
  entry is `∑ r, B[o, r] * A[r, i]`. The layer's output at (t, o) is stated in two arrangements:
  * `fusedAt`: `∑ i, x[t, i] * (W[o, i] + Δ[o, i]) + bias[o]` (one pass over `i` with the two weights added first);
  * `splitAt`: `∑ i, x[t, i] * W[o, i] + (∑ i, x[t, i] * Δ[o, i] + bias[o])` (two matrix products, then the bias).
  They agree where every float entry is a real number: the product distributes over the sum of two reals.
-/
import Idealize.ShloMosaic.PureOps.Ideal
import Idealize.ShloMosaic.Lib.ValueIdx

noncomputable section

namespace Cert.Loftq

open Idealize.ShloMosaic Idealize.ShloMosaic.ValueIdx

/-- The sixteen NF4 codebook words by code (f32 patterns); any other code reads the zero word. -/
def codeWord : Nat → BitVec 32
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04E3#32 | 11 => 0x3EAD033A#32
  | 12 => 0x3EE1A4B8#32 | 13 => 0x3F1007AB#32 | 14 => 0x3F3913B3#32 | 15 => 0x3F800000#32
  | _ => 0x00000000#32

/-- The codebook value of a code word. -/
def nf4 (w : BitVec 32) : EReal := Ideal.ofBits .f32 (codeWord w.toNat)

/-- The run of 64 consecutive weight entries that holds entry (o, i): one scale per run. -/
def scalePos (o i : Fin 4096) : Fin 262144 :=
  ⟨o.val * 64 + i.val / 64, by have := o.isLt; have := i.isLt; omega⟩

/-- The dequantised weight's entry (o, i). -/
def wdeq (q : IVec ⟨2, ![4096, 4096]⟩ 32) (s : FVec Ideal ⟨1, ![262144]⟩ .f32) (o i : Fin 4096) : EReal :=
  nf4 (q (ix2 o i)) * s (ix1 (scalePos o i))

/-- The low-rank correction's entry (o, i). -/
def lora (A : FVec Ideal ⟨2, ![64, 4096]⟩ .f32) (B : FVec Ideal ⟨2, ![4096, 64]⟩ .f32) (o i : Fin 4096) : EReal :=
  ∑ r : Fin 64, B (ix2 o r) * A (ix2 r i)

/-- The output at (t, o), the two weights added before the product with `x`. -/
def fusedAt (x : FVec Ideal ⟨2, ![8192, 4096]⟩ .f32) (q : IVec ⟨2, ![4096, 4096]⟩ 32) (s : FVec Ideal ⟨1, ![262144]⟩ .f32)
    (A : FVec Ideal ⟨2, ![64, 4096]⟩ .f32) (B : FVec Ideal ⟨2, ![4096, 64]⟩ .f32) (bias : FVec Ideal ⟨1, ![4096]⟩ .f32)
    (t : Fin 8192) (o : Fin 4096) : EReal :=
  (∑ i : Fin 4096, x (ix2 t i) * (wdeq q s o i + lora A B o i)) + bias (ix1 o)

/-- The output at (t, o) as two matrix products and the bias. -/
def splitAt (x : FVec Ideal ⟨2, ![8192, 4096]⟩ .f32) (q : IVec ⟨2, ![4096, 4096]⟩ 32) (s : FVec Ideal ⟨1, ![262144]⟩ .f32)
    (A : FVec Ideal ⟨2, ![64, 4096]⟩ .f32) (B : FVec Ideal ⟨2, ![4096, 64]⟩ .f32) (bias : FVec Ideal ⟨1, ![4096]⟩ .f32)
    (t : Fin 8192) (o : Fin 4096) : EReal :=
  (∑ i : Fin 4096, x (ix2 t i) * wdeq q s o i) + ((∑ i : Fin 4096, x (ix2 t i) * lora A B o i) + bias (ix1 o))

/-- The whole output array, in the first arrangement. -/
def fused (x : FVec Ideal ⟨2, ![8192, 4096]⟩ .f32) (q : IVec ⟨2, ![4096, 4096]⟩ 32) (s : FVec Ideal ⟨1, ![262144]⟩ .f32)
    (A : FVec Ideal ⟨2, ![64, 4096]⟩ .f32) (B : FVec Ideal ⟨2, ![4096, 64]⟩ .f32) (bias : FVec Ideal ⟨1, ![4096]⟩ .f32) :
    FVec Ideal ⟨2, ![8192, 4096]⟩ .f32 :=
  fun j => fusedAt x q s A B bias (j 0) (j 1)

/-- The whole output array, in the second arrangement. -/
def split (x : FVec Ideal ⟨2, ![8192, 4096]⟩ .f32) (q : IVec ⟨2, ![4096, 4096]⟩ 32) (s : FVec Ideal ⟨1, ![262144]⟩ .f32)
    (A : FVec Ideal ⟨2, ![64, 4096]⟩ .f32) (B : FVec Ideal ⟨2, ![4096, 64]⟩ .f32) (bias : FVec Ideal ⟨1, ![4096]⟩ .f32) :
    FVec Ideal ⟨2, ![8192, 4096]⟩ .f32 :=
  fun j => splitAt x q s A B bias (j 0) (j 1)

/-- An array all of whose entries are real numbers. -/
def AllReal {S : Shape} (v : S.Idx → EReal) : Prop := ∀ k, ∃ r : ℝ, v k = (r : EReal)

/-- An array of code words all of which are codes: below 16. -/
def AllCodes (q : IVec ⟨2, ![4096, 4096]⟩ 32) : Prop := ∀ k, (q k).toNat < 16

end Cert.Loftq

end
-- ==== Proof.KBody.lean ====
import proofs.«423263_j68539088109776_1_alg».proof.Proof.Gen.KernelIdeal.Value
import proofs.«423263_j68539088109776_1_alg».proof.Proof.Spec
import Idealize.ShloMosaic.Lib.ValueIdx
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.SL.Sem Idealize.ShloMosaic.Tactic
open Idealize.ShloMosaic.ValueIdx

variable {F : FTy → Type} [FloatOps F]

/-! ## One grid point's work as a function of its blocks

At the point with coordinates (i, j, k) the body holds a token block `x0` [1024 × 512] (rows 1024 i …, columns 512 k …),
a code block `x1` [1024 × 512] (weight rows 1024 j …, columns 512 k …), the weight rows' 64 scales `x2` [1024 × 64],
a block of the low-rank factor A `x3` [64 × 512] (columns 512 k …), the rows of the factor B `x4` [1024 × 64], and the
accumulator `acc` [1024 × 1024]. It leaves in the accumulator
`acc[r, c] + ∑ q, x0[r, q] * (code(x1[c, q]) * x2[c, 8 k + q / 64] + ∑ ρ, x4[c, ρ] * x3[ρ, q])`. -/

theorem zero_off_1024x1024 : (![0, 0] : Fin S1024x1024.rank → ℕ) = fun _ => 0 := by
  funext a; match a with | ⟨0, _⟩ => rfl | ⟨1, _⟩ => rfl
theorem zero_off_1024x512 : (![0, 0] : Fin S1024x512.rank → ℕ) = fun _ => 0 := by
  funext a; match a with | ⟨0, _⟩ => rfl | ⟨1, _⟩ => rfl
theorem zero_off_1024x64 : (![0, 0] : Fin S1024x64.rank → ℕ) = fun _ => 0 := by
  funext a; match a with | ⟨0, _⟩ => rfl | ⟨1, _⟩ => rfl
theorem zero_off_64x512 : (![0, 0] : Fin S64x512.rank → ℕ) = fun _ => 0 := by
  funext a; match a with | ⟨0, _⟩ => rfl | ⟨1, _⟩ => rfl
theorem zero_off_1x1024 : (![0, 0] : Fin S1x1024.rank → ℕ) = fun _ => 0 := by
  funext a; match a with | ⟨0, _⟩ => rfl | ⟨1, _⟩ => rfl

/-- The eight scale columns a point reads: columns 8 k … 8 k + 7 of the row block's 64 scales, k the point's third
    coordinate. -/
def scaleWin (i : grid0.Coords) (x2 : Vec F S1024x64 .f32) : Vec F S1024x8 .f32 :=
  View.ld x2 (Rect.unit (s := S1024x64) (k0_off1 i) S1024x8.size (k0_off1_inb i))

/-- What a point leaves in the accumulator, over what it found there. -/
def step (i : grid0.Coords) (x0 : Vec F S1024x512 .f32) (x1 : Vec F S1024x512 .i32) (x2 : Vec F S1024x64 .f32)
    (x3 : Vec F S64x512 .f32) (x4 : Vec F S1024x64 .f32) (acc : Vec F S1024x1024 .f32) : Vec F S1024x1024 .f32 :=
  k0_pay1 (k0_pay6 x1 (k0_pay4 x1) (k0_pay5 x1) (FloatOps.ofBits .f32 0x3DA2FAFF#32)) (k0_pay7 (scaleWin i x2))
    (iota .tc S1024x512 32 [1] iota_S1024x512_d1_w32)
    (k0_pay10 (k0_pay7 (scaleWin i x2)) (iota .tc S1024x512 32 [1] iota_S1024x512_d1_w32) k0_pay8 k0_pay9)
    384#32 x4 x3 x0 acc

/-- At a middle point of a run the accumulator ends at the point's work over what the point before left. -/
theorem sout_B (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x64 .f32) (harg5 : arg5.IsWhole) (arg6 : Memref sig .tc .vmem S64x512 .f32) (harg6 : arg6.IsWhole) (arg7 : Memref sig .tc .vmem S1024x64 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : ¬cond0_1 i)
    (x0 : Vec F S1024x512 .f32) (x1 : Vec F S1024x512 .i32) (x2 : Vec F S1024x64 .f32) (x3 : Vec F S64x512 .f32) (x4 : Vec F S1024x64 .f32) (x5 : Vec F S1x1024 .f32) (xs0 : Vec F S1024x1024 .f32) :
    sout0_B_0 c i arg3 harg3 arg4 harg4 arg5 harg5 arg6 harg6 arg7 harg7 arg8 harg8 arg9 harg9 arg10 harg10 hc0 hc1 x0 x1 x2 x3 x4 x5 xs0 = step i x0 x1 x2 x3 x4 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero zero_off_1024x1024]
  simp only [View.readAt_eq_ld, Memref.IsWhole.read_unread, View.ld_unit_zero (S := S1024x512) zero_off_1024x512,
    View.ld_unit_zero (S := S1024x64) zero_off_1024x64, View.ld_unit_zero (S := S64x512) zero_off_64x512,
    View.ld_unit_zero (S := S1024x1024) zero_off_1024x1024]
  rfl

theorem sout_C (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x64 .f32) (harg5 : arg5.IsWhole) (arg6 : Memref sig .tc .vmem S64x512 .f32) (harg6 : arg6.IsWhole) (arg7 : Memref sig .tc .vmem S1024x64 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x512 .f32) (x1 : Vec F S1024x512 .i32) (x2 : Vec F S1024x64 .f32) (x3 : Vec F S64x512 .f32) (x4 : Vec F S1024x64 .f32) (x5 : Vec F S1x1024 .f32) (xs0 : Vec F S1024x1024 .f32) :
    sout0_C_0 c i arg3 harg3 arg4 harg4 arg5 harg5 arg6 harg6 arg7 harg7 arg8 harg8 arg9 harg9 arg10 harg10 hc0 hc1 x0 x1 x2 x3 x4 x5 xs0 = step i x0 x1 x2 x3 x4 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero zero_off_1024x1024]
  simp only [View.readAt_eq_ld, Memref.IsWhole.read_unread, View.ld_unit_zero (S := S1024x512) zero_off_1024x512,
    View.ld_unit_zero (S := S1024x64) zero_off_1024x64, View.ld_unit_zero (S := S64x512) zero_off_64x512,
    View.ld_unit_zero (S := S1024x1024) zero_off_1024x1024]
  rfl

/-- At a run's first point the accumulator is zeroed first: the point leaves its own work over zeros. -/
theorem sout_A (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x64 .f32) (harg5 : arg5.IsWhole) (arg6 : Memref sig .tc .vmem S64x512 .f32) (harg6 : arg6.IsWhole) (arg7 : Memref sig .tc .vmem S1024x64 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond0_0 i) (hc1 : ¬cond0_1 i)
    (x0 : Vec F S1024x512 .f32) (x1 : Vec F S1024x512 .i32) (x2 : Vec F S1024x64 .f32) (x3 : Vec F S64x512 .f32) (x4 : Vec F S1024x64 .f32) (x5 : Vec F S1x1024 .f32) :
    sout0_A_0 c i arg3 harg3 arg4 harg4 arg5 harg5 arg6 harg6 arg7 harg7 arg8 harg8 arg9 harg9 arg10 harg10 hc0 hc1 x0 x1 x2 x3 x4 x5 = step i x0 x1 x2 x3 x4 k0_pay3 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) zero_off_1024x1024, View.readCov_unit_zero (S := S1024x1024) _ zero_off_1024x1024]
  simp only [View.readAt_eq_ld, Memref.IsWhole.read_unread, View.ld_unit_zero (S := S1024x512) zero_off_1024x512,
    View.ld_unit_zero (S := S1024x64) zero_off_1024x64, View.ld_unit_zero (S := S64x512) zero_off_64x512,
    View.ld_unit_zero (S := S1024x1024) zero_off_1024x1024]
  rfl

/-- At a run's last point the output block is the accumulator's new contents plus the bias row on every row. -/
theorem out_C (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x64 .f32) (harg5 : arg5.IsWhole) (arg6 : Memref sig .tc .vmem S64x512 .f32) (harg6 : arg6.IsWhole) (arg7 : Memref sig .tc .vmem S1024x64 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x512 .f32) (x1 : Vec F S1024x512 .i32) (x2 : Vec F S1024x64 .f32) (x3 : Vec F S64x512 .f32) (x4 : Vec F S1024x64 .f32) (x5 : Vec F S1x1024 .f32) (xs0 : Vec F S1024x1024 .f32) :
    out0_C_6 c i arg3 harg3 arg4 harg4 arg5 harg5 arg6 harg6 arg7 harg7 arg8 harg8 arg9 harg9 arg10 harg10 hc0 hc1 x0 x1 x2 x3 x4 x5 xs0 = k0_pay2 (step i x0 x1 x2 x3 x4 xs0) x5 := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero zero_off_1024x1024, View.readCov_unit_zero (S := S1024x1024) _ zero_off_1024x1024]
  simp only [View.readAt_eq_ld, Memref.IsWhole.read_unread, View.ld_unit_zero (S := S1024x512) zero_off_1024x512,
    View.ld_unit_zero (S := S1024x64) zero_off_1024x64, View.ld_unit_zero (S := S64x512) zero_off_64x512,
    View.ld_unit_zero (S := S1024x1024) zero_off_1024x1024, View.ld_unit_zero (S := S1x1024) zero_off_1x1024]
  rfl

end Cert.KernelIdeal.Body
end
-- ==== Proof.KChains.lean ====
/-
  Two chains of selects on one machine word, read as table lookups.

  * Fifteen equality tests against the codes 1 … 15, each choosing that code's codebook word over what the tests
    before it chose, starting from code 0's word: for a word below 16 this is the codebook value of the word.
  * Eight tests "64 b ≤ w < 64 (b + 1)" (signed), each choosing the b-th of eight values over what the tests before it
    chose: for a position w below 512 this is the value number w / 64.
-/
import proofs.«423263_j68539088109776_1_alg».proof.Proof.Spec
import Idealize.ShloMosaic.Lib.Affine
import Idealize.ShloMosaic.Lib.StableHlo.Predicate

noncomputable section

namespace Cert.Loftq

open Idealize.ShloMosaic

/-- The codebook lookup as the chain of fifteen selects. -/
def nf4Select (w : BitVec 32) : EReal :=
  Scalar.select (IntOp.cmpi .eq w 15#32) (Ideal.ofBits .f32 0x3F800000#32)
    (Scalar.select (IntOp.cmpi .eq w 14#32) (Ideal.ofBits .f32 0x3F3913B3#32)
    (Scalar.select (IntOp.cmpi .eq w 13#32) (Ideal.ofBits .f32 0x3F1007AB#32)
    (Scalar.select (IntOp.cmpi .eq w 12#32) (Ideal.ofBits .f32 0x3EE1A4B8#32)
    (Scalar.select (IntOp.cmpi .eq w 11#32) (Ideal.ofBits .f32 0x3EAD033A#32)
    (Scalar.select (IntOp.cmpi .eq w 10#32) (Ideal.ofBits .f32 0x3E7C04E3#32)
    (Scalar.select (IntOp.cmpi .eq w 9#32) (Ideal.ofBits .f32 0x3E24CAE3#32)
    (Scalar.select (IntOp.cmpi .eq w 8#32) (Ideal.ofBits .f32 0x3DA2FAFF#32)
    (Scalar.select (IntOp.cmpi .eq w 7#32) (Ideal.ofBits .f32 0x00000000#32)
    (Scalar.select (IntOp.cmpi .eq w 6#32) (Ideal.ofBits .f32 0xBDBA7871#32)
    (Scalar.select (IntOp.cmpi .eq w 5#32) (Ideal.ofBits .f32 0xBE3D353F#32)
    (Scalar.select (IntOp.cmpi .eq w 4#32) (Ideal.ofBits .f32 0xBE91A24D#32)
    (Scalar.select (IntOp.cmpi .eq w 3#32) (Ideal.ofBits .f32 0xBECA32A0#32)
    (Scalar.select (IntOp.cmpi .eq w 2#32) (Ideal.ofBits .f32 0xBF066B30#32)
    (Scalar.select (IntOp.cmpi .eq w 1#32) (Ideal.ofBits .f32 0xBF3239B1#32)
    (Ideal.ofBits .f32 0xBF800000#32)))))))))))))))

/-- The chain is the lookup for a code word. -/
theorem nf4Select_eq (w : BitVec 32) (hw : w.toNat < 16) : nf4Select w = nf4 w := by
  have e : w = BitVec.ofNat 32 w.toNat := by simp
  generalize w.toNat = n at hw e
  subst e
  interval_cases n <;> rfl

/-- The choice among eight values by the run of 64 positions that holds position `w`. -/
def runSelect (w : BitVec 32) (v : Fin 8 → EReal) (z : EReal) : EReal :=
  Scalar.select (IntOp.andi (IntOp.cmpi .sge w 448#32) (IntOp.cmpi .slt w 512#32)) (v 7)
    (Scalar.select (IntOp.andi (IntOp.cmpi .sge w 384#32) (IntOp.cmpi .slt w 448#32)) (v 6)
    (Scalar.select (IntOp.andi (IntOp.cmpi .sge w 320#32) (IntOp.cmpi .slt w 384#32)) (v 5)
    (Scalar.select (IntOp.andi (IntOp.cmpi .sge w 256#32) (IntOp.cmpi .slt w 320#32)) (v 4)
    (Scalar.select (IntOp.andi (IntOp.cmpi .sge w 192#32) (IntOp.cmpi .slt w 256#32)) (v 3)
    (Scalar.select (IntOp.andi (IntOp.cmpi .sge w 128#32) (IntOp.cmpi .slt w 192#32)) (v 2)
    (Scalar.select (IntOp.andi (IntOp.cmpi .sge w 64#32) (IntOp.cmpi .slt w 128#32)) (v 1)
    (Scalar.select (IntOp.andi (IntOp.cmpi .sge w 0#32) (IntOp.cmpi .slt w 64#32)) (v 0)
    (z))))))))

/-- A signed range test on a small position is the test on the naturals. -/
theorem range_test (n lo hi : Nat) (hn : n < 2 ^ 31) (hlo : lo < 2 ^ 31) (hhi : hi < 2 ^ 31) :
    IntOp.andi (IntOp.cmpi .sge (BitVec.ofNat 32 n) (BitVec.ofNat 32 lo)) (IntOp.cmpi .slt (BitVec.ofNat 32 n) (BitVec.ofNat 32 hi)) = 1#1
      ↔ lo ≤ n ∧ n < hi := by
  rw [IntOp.andi_eq_one, IntOp.cmpi_sge, IntOp.cmpi_slt, StableHlo.Predicate.toInt_ofNat_small n hn,
    StableHlo.Predicate.toInt_ofNat_small lo hlo, StableHlo.Predicate.toInt_ofNat_small hi hhi]
  omega

/-- The chain picks the value of the run that holds the position. -/
theorem runSelect_eq (n : Nat) (hn : n < 512) (v : Fin 8 → EReal) (z : EReal) :
    runSelect (BitVec.ofNat 32 n) v z = v ⟨n / 64, by omega⟩ := by
  have t : ∀ (lo hi : Nat) (a b : EReal), lo < 2 ^ 31 → hi < 2 ^ 31 →
      Scalar.select (IntOp.andi (IntOp.cmpi .sge (BitVec.ofNat 32 n) (BitVec.ofNat 32 lo)) (IntOp.cmpi .slt (BitVec.ofNat 32 n) (BitVec.ofNat 32 hi))) a b
        = if lo ≤ n ∧ n < hi then a else b := by
    intro lo hi a b hlo hhi
    unfold Scalar.select
    exact if_congr (range_test n lo hi (by omega) hlo hhi) rfl rfl
  unfold runSelect
  rw [t 448 512 _ _ (by norm_num) (by norm_num), t 384 448 _ _ (by norm_num) (by norm_num), t 320 384 _ _ (by norm_num) (by norm_num),
    t 256 320 _ _ (by norm_num) (by norm_num), t 192 256 _ _ (by norm_num) (by norm_num), t 128 192 _ _ (by norm_num) (by norm_num),
    t 64 128 _ _ (by norm_num) (by norm_num), t 0 64 _ _ (by norm_num) (by norm_num)]
  split_ifs <;> first | (congr 1; apply Fin.ext; show _ = n / 64; omega) | (exfalso; omega)

end Cert.Loftq

end
-- ==== Proof.KTile.lean ====
import proofs.«423263_j68539088109776_1_alg».proof.Proof.KBody
import proofs.«423263_j68539088109776_1_alg».proof.Proof.KChains
import Idealize.ShloMosaic.Lib.Pipeline.Value
import proofs.«423263_j68539088109776_1_alg».proof.Proof.Spec
import Idealize.ShloMosaic.Lib.ValueIdx
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.SL.Sem Idealize.ShloMosaic.Tactic
open Idealize.ShloMosaic.ValueIdx

open Cert.Loftq

/-! ## A point's work read entry by entry, at the exact values

The weight tile of a point: entry (c, q) is the codebook value of the code at (c, q) times the scale of the run of 64
columns that holds column q (one of the point's eight scale columns), plus the low-rank product's entry. -/

abbrev D1 := dot_S1024x64_S64x512_S1024x512_1_0_0_1_n_n
abbrev D2 := dot_S1024x512_S1024x512_S1024x1024_1_1_0_0_n_n

theorem lhs1_0 (j : S1024x512.Idx) (k : D1.contr.Idx) : (D1.lhsIdx j k 0 : ℕ) = j 0 := by
  simp [DotDims.lhsIdx, D1, dot_S1024x64_S64x512_S1024x512_1_0_0_1_n_n]; rfl
theorem lhs1_1 (j : S1024x512.Idx) (k : D1.contr.Idx) : (D1.lhsIdx j k 1 : ℕ) = k ⟨0, by decide⟩ := by
  simp [DotDims.lhsIdx, D1, dot_S1024x64_S64x512_S1024x512_1_0_0_1_n_n]; rfl
theorem rhs1_0 (j : S1024x512.Idx) (k : D1.contr.Idx) : (D1.rhsIdx j k 0 : ℕ) = k ⟨0, by decide⟩ := by
  simp [DotDims.rhsIdx, D1, dot_S1024x64_S64x512_S1024x512_1_0_0_1_n_n]; rfl
theorem rhs1_1 (j : S1024x512.Idx) (k : D1.contr.Idx) : (D1.rhsIdx j k 1 : ℕ) = j 1 := by
  simp [DotDims.rhsIdx, D1, dot_S1024x64_S64x512_S1024x512_1_0_0_1_n_n]; rfl

theorem lhs2_0 (j : S1024x1024.Idx) (k : D2.contr.Idx) : (D2.lhsIdx j k 0 : ℕ) = j 0 := by
  simp [DotDims.lhsIdx, D2, dot_S1024x512_S1024x512_S1024x1024_1_1_0_0_n_n]; rfl
theorem lhs2_1 (j : S1024x1024.Idx) (k : D2.contr.Idx) : (D2.lhsIdx j k 1 : ℕ) = k ⟨0, by decide⟩ := by
  simp [DotDims.lhsIdx, D2, dot_S1024x512_S1024x512_S1024x1024_1_1_0_0_n_n]; rfl
theorem rhs2_0 (j : S1024x1024.Idx) (k : D2.contr.Idx) : (D2.rhsIdx j k 0 : ℕ) = j 1 := by
  simp [DotDims.rhsIdx, D2, dot_S1024x512_S1024x512_S1024x1024_1_1_0_0_n_n]; rfl
theorem rhs2_1 (j : S1024x1024.Idx) (k : D2.contr.Idx) : (D2.rhsIdx j k 1 : ℕ) = k ⟨0, by decide⟩ := by
  simp [DotDims.rhsIdx, D2, dot_S1024x512_S1024x512_S1024x1024_1_1_0_0_n_n]; rfl

/-- The low-rank product of a point, into zeros: entry (c, q) is `∑ ρ, a[c, ρ] * b[ρ, q]`. -/
theorem mm1_apply {φ₁ φ₂ : FTy} (a : FVec Ideal S1024x64 φ₁) (b : FVec Ideal S64x512 φ₂) (c : Fin 1024) (q : Fin 512) :
    matmul D1 none a b (constant S1024x512 .f32 0x00000000#32) (ix2 c q) = ∑ ρ : Fin 64, a (ix2 c ρ) * b (ix2 ρ q) := by
  simp only [matmul]
  rw [Ideal.matmul_constant_zero_apply, ← Equiv.sum_comp (contrEquiv1 D1 64 rfl rfl).symm]
  refine Finset.sum_congr rfl fun ρ _ => ?_
  congr 2
  · apply Shape.idx_ext₂
    · exact lhs1_0 _ _
    · exact (lhs1_1 _ _).trans (contrEquiv1_symm_val D1 64 rfl rfl ρ)
  · apply Shape.idx_ext₂
    · exact (rhs1_0 _ _).trans (contrEquiv1_symm_val D1 64 rfl rfl ρ)
    · exact rhs1_1 _ _

/-- The token block against the weight tile, into zeros: entry (r, c) is `∑ q, a[r, q] * b[c, q]`. -/
theorem mm2_apply {φ₁ φ₂ : FTy} (a : FVec Ideal S1024x512 φ₁) (b : FVec Ideal S1024x512 φ₂) (r c : Fin 1024) :
    matmul D2 none a b (constant S1024x1024 .f32 0x00000000#32) (ix2 r c) = ∑ q : Fin 512, a (ix2 r q) * b (ix2 c q) := by
  simp only [matmul]
  rw [Ideal.matmul_constant_zero_apply, ← Equiv.sum_comp (contrEquiv1 D2 512 rfl rfl).symm]
  refine Finset.sum_congr rfl fun q _ => ?_
  congr 2
  · apply Shape.idx_ext₂
    · exact lhs2_0 _ _
    · exact (lhs2_1 _ _).trans (contrEquiv1_symm_val D2 512 rfl rfl q)
  · apply Shape.idx_ext₂
    · exact rhs2_0 _ _
    · exact (rhs2_1 _ _).trans (contrEquiv1_symm_val D2 512 rfl rfl q)

section AnyF
variable {F : FTy → Type} [FloatOps F]

/-- Each entry's scale: at column q the point's scale column number q / 64 (chosen by eight range tests on the column). -/
def scaleFull (sw : FVec F S1024x8 .f32) : FVec F S1024x512 .f32 :=
  have v69 : IVec S1024x512 32 := iota .tc S1024x512 32 [1] iota_S1024x512_d1_w32
  have v124 : FVec F S1024x512 .f32 := k0_pay10 sw v69 k0_pay8 k0_pay9
  have m6 : IVec S1024x512 1 := andi (cmpi .sge v69 (broadcast S1024x512 384#32)) (cmpi .slt v69 (broadcast S1024x512 448#32))
  have c6 : FVec F S1024x512 .f32 := broadcastTo S1024x512 (shapeCast S1024x1 (extractStridedSlice S1024x1 ![0, 6] sw slices_S1024x8_o0_6_S1024x1) shapeCasts_S1024x1_S1024x1) broadcasts_S1024x1_S1024x512
  have s6 : FVec F S1024x512 .f32 := select m6 c6 v124
  have m7 : IVec S1024x512 1 := andi (cmpi .sge v69 (broadcast S1024x512 448#32)) (cmpi .slt v69 (broadcast S1024x512 512#32))
  have c7 : FVec F S1024x512 .f32 := broadcastTo S1024x512 (shapeCast S1024x1 (extractStridedSlice S1024x1 ![0, 7] sw slices_S1024x8_o0_7_S1024x1) shapeCasts_S1024x1_S1024x1) broadcasts_S1024x1_S1024x512
  have s7 : FVec F S1024x512 .f32 := select m7 c7 s6
  s7

/-- A point's weight tile: codebook value times scale, plus the low-rank product. -/
def wtile (i : grid0.Coords) (x1 : Vec F S1024x512 .i32) (x2 : Vec F S1024x64 .f32) (x3 : Vec F S64x512 .f32) (x4 : Vec F S1024x64 .f32) :
    FVec F S1024x512 .f32 :=
  addf (mulf (k0_pay6 x1 (k0_pay4 x1) (k0_pay5 x1) (FloatOps.ofBits .f32 0x3DA2FAFF#32)) (scaleFull (k0_pay7 (scaleWin i x2))))
    (matmul D1 none (truncf .bf16 x4 bitsLt_bf16_f32) (truncf .bf16 x3 bitsLt_bf16_f32) (constant S1024x512 .f32 0x00000000#32))

/-- A point adds to the accumulator the product of its token block with its weight tile (contracting the columns). -/
theorem step_eq (i : grid0.Coords) (x0 : Vec F S1024x512 .f32) (x1 : Vec F S1024x512 .i32) (x2 : Vec F S1024x64 .f32)
    (x3 : Vec F S64x512 .f32) (x4 : Vec F S1024x64 .f32) (acc : Vec F S1024x1024 .f32) :
    step i x0 x1 x2 x3 x4 acc = addf acc (matmul D2 none (truncf .bf16 x0 bitsLt_bf16_f32)
      (truncf .bf16 (wtile i x1 x2 x3 x4) bitsLt_bf16_f32) (constant S1024x1024 .f32 0x00000000#32)) := by
  unfold step k0_pay1 wtile scaleFull
  exact shapeCast_self _ _

end AnyF

/-! ### The tile's entries -/

/-- A scale column spread over the tile reads the column's entry of the row. -/
theorem col_apply (sw : FVec Ideal S1024x8 .f32) (b : ℕ) (hb : b < 8) (h : S1024x8.Slices ![0, b] S1024x1) (c : Fin 1024) (q : Fin 512) :
    broadcastTo S1024x512 (shapeCast S1024x1 (extractStridedSlice S1024x1 ![0, b] sw h) shapeCasts_S1024x1_S1024x1)
      broadcasts_S1024x1_S1024x512 (ix2 c q) = sw (ix2 c ⟨b, hb⟩) := by
  rw [shapeCast_self]
  refine (broadcastTo_apply _ _ (ix2 c q) (ix2 c (0 : Fin 1)) (fun a => ?_)).trans ?_
  · match a with
    | ⟨0, _⟩ => rfl
    | ⟨1, _⟩ => rfl
  · refine extractStridedSlice_apply _ _ _ _ (ix2 c ⟨b, hb⟩) (fun a => ?_)
    match a with
    | ⟨0, _⟩ => show c.val = 0 + c.val; omega
    | ⟨1, _⟩ => show b = b + 0; omega

/-- The column counter of the tile reads the column. -/
theorem iota_at (c : Fin 1024) (q : Fin 512) :
    iota .tc S1024x512 32 [1] iota_S1024x512_d1_w32 (ix2 c q) = BitVec.ofNat 32 q.val :=
  iota_single_apply .tc S1024x512 32 1 iota_S1024x512_d1_w32 (ix2 c q)

/-- Entry (c, q) of the spread scales is the row's scale column q / 64. -/
theorem scaleFull_apply (sw : FVec Ideal S1024x8 .f32) (c : Fin 1024) (q : Fin 512) :
    scaleFull sw (ix2 c q) = sw (ix2 c ⟨q.val / 64, by have := q.isLt; omega⟩) := by
  have key : scaleFull sw (ix2 c q) = runSelect (iota .tc S1024x512 32 [1] iota_S1024x512_d1_w32 (ix2 c q))
      (fun b => sw (ix2 c b)) (Ideal.ofBits .f32 0x00000000#32) := by
    unfold scaleFull k0_pay10 k0_pay9 k0_pay8 runSelect
    dsimp only
    simp only [select_apply]
    rw [col_apply sw 7 (by norm_num), col_apply sw 6 (by norm_num), col_apply sw 5 (by norm_num), col_apply sw 4 (by norm_num),
      col_apply sw 3 (by norm_num), col_apply sw 2 (by norm_num), col_apply sw 1 (by norm_num), col_apply sw 0 (by norm_num)]
    rfl
  rw [key, iota_at]
  exact runSelect_eq q.val q.isLt _ _

/-- Entry (c, q) of the codebook lookup is the codebook value of the code there. -/
theorem codes_at (x1 : Vec Ideal S1024x512 .i32) (c : Fin 1024) (q : Fin 512) (hw : (x1 (ix2 c q)).toNat < 16) :
    k0_pay6 (F := Ideal) x1 (k0_pay4 x1) (k0_pay5 x1) (FloatOps.ofBits .f32 0x3DA2FAFF#32) (ix2 c q) = nf4 (x1 (ix2 c q)) := by
  have key : k0_pay6 (F := Ideal) x1 (k0_pay4 x1) (k0_pay5 x1) (FloatOps.ofBits .f32 0x3DA2FAFF#32) (ix2 c q)
      = nf4Select (x1 (ix2 c q)) := by
    unfold k0_pay6 k0_pay4 k0_pay5 nf4Select
    rfl
  rw [key]
  exact nf4Select_eq _ hw

/-- The point's scale column b is the row block's scale column 8 k + b, k the point's third coordinate. -/
theorem scaleWin_apply (i : grid0.Coords) (x2 : Vec Ideal S1024x64 .f32) (c : Fin 1024) (b : Fin 8) :
    scaleWin i x2 (ix2 c b) = x2 (ix2 c ⟨8 * (i 2).val + b.val, by have h : (i 2).val < 8 := (i 2).isLt; have := b.isLt; omega⟩) := by
  unfold scaleWin View.ld
  congr 1
  apply Shape.idx_ext₂
  · show k0_off1 i 0 + 1 * c.val = c.val
    rw [k0_off1_eq]; show 0 + 1 * c.val = c.val; omega
  · show k0_off1 i 1 + 1 * b.val = 8 * (i 2).val + b.val
    rw [k0_off1_eq]; show 8 * (i 2).val + 1 * b.val = _; omega

/-- Entry (c, q) of a point's weight tile. -/
theorem wtile_apply (i : grid0.Coords) (x1 : Vec Ideal S1024x512 .i32) (x2 : Vec Ideal S1024x64 .f32) (x3 : Vec Ideal S64x512 .f32)
    (x4 : Vec Ideal S1024x64 .f32) (c : Fin 1024) (q : Fin 512) (hw : (x1 (ix2 c q)).toNat < 16) :
    wtile i x1 x2 x3 x4 (ix2 c q)
      = nf4 (x1 (ix2 c q)) * x2 (ix2 c ⟨8 * (i 2).val + q.val / 64, by have h : (i 2).val < 8 := (i 2).isLt; have := q.isLt; omega⟩)
        + ∑ ρ : Fin 64, x4 (ix2 c ρ) * x3 (ix2 ρ q) := by
  unfold wtile
  rw [addf_apply, mulf_apply, codes_at x1 c q hw, scaleFull_apply, mm1_apply]
  unfold k0_pay7
  rw [shapeCast_self, scaleWin_apply]
  rfl

/-- Entry (r, c) of what a point leaves in the accumulator. -/
theorem step_apply (i : grid0.Coords) (x0 : Vec Ideal S1024x512 .f32) (x1 : Vec Ideal S1024x512 .i32) (x2 : Vec Ideal S1024x64 .f32)
    (x3 : Vec Ideal S64x512 .f32) (x4 : Vec Ideal S1024x64 .f32) (acc : Vec Ideal S1024x1024 .f32) (r c : Fin 1024)
    (hw : ∀ q : Fin 512, (x1 (ix2 c q)).toNat < 16) :
    step i x0 x1 x2 x3 x4 acc (ix2 r c)
      = acc (ix2 r c) + ∑ q : Fin 512, x0 (ix2 r q) *
          (nf4 (x1 (ix2 c q)) * x2 (ix2 c ⟨8 * (i 2).val + q.val / 64, by have h : (i 2).val < 8 := (i 2).isLt; have := q.isLt; omega⟩)
            + ∑ ρ : Fin 64, x4 (ix2 c ρ) * x3 (ix2 ρ q)) := by
  rw [step_eq, addf_apply, mm2_apply]
  refine congrArg (acc (ix2 r c) + ·) (Finset.sum_congr rfl fun q _ => ?_)
  rw [truncf_apply, truncf_apply, wtile_apply i x1 x2 x3 x4 c q (hw q)]

end Cert.KernelIdeal.Body
end
-- ==== Proof.KBlocks.lean ====
import proofs.«423263_j68539088109776_1_alg».proof.Proof.Gen.KernelIdeal.Value
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem Idealize.ShloMosaic.Tactic
open Idealize.ShloMosaic.ValueIdx

variable {F : FTy → Type} [FloatOps F]

/-! ## The blocks a grid point holds, as entries of the argument arrays

Point t of the 8 × 4 × 8 grid has coordinates (I, J, K) = (t / 32, t / 8 % 4, t % 8). Its token block is rows 1024 I …
and columns 512 K … of `x`; its code block rows 1024 J … and columns 512 K … of the codes; its scales the 64 scales of
each of the weight rows 1024 J … (the flat scale array regrouped 64 to a row); its block of the factor A the columns
512 K …; its rows of the factor B the rows 1024 J …; its bias entries 1024 J … . -/

variable (m : (ℓ : Loc nD τ sig) → Buf (Elt F) ℓ)

theorem idx0 : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem idx1 : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)
theorem idx2 : ∀ t : Fin cfg0.N, win0_2.index t 0 = t.val / 8 % 4 ∧ win0_2.index t 1 = 0 :=
  (by decide +kernel : ∀ t : Fin grid0.N, win0_2.index t 0 = t.val / 8 % 4 ∧ win0_2.index t 1 = 0)
theorem idx3 : ∀ t : Fin cfg0.N, win0_3.index t 0 = 0 ∧ win0_3.index t 1 = t.val % 8 :=
  (by decide +kernel : ∀ t : Fin grid0.N, win0_3.index t 0 = 0 ∧ win0_3.index t 1 = t.val % 8)
theorem idx4 : ∀ t : Fin cfg0.N, win0_4.index t 0 = t.val / 8 % 4 ∧ win0_4.index t 1 = 0 :=
  (by decide +kernel : ∀ t : Fin grid0.N, win0_4.index t 0 = t.val / 8 % 4 ∧ win0_4.index t 1 = 0)
theorem idx5 : ∀ t : Fin cfg0.N, win0_5.index t 0 = 0 ∧ win0_5.index t 1 = t.val / 8 % 4 :=
  (by decide +kernel : ∀ t : Fin grid0.N, win0_5.index t 0 = 0 ∧ win0_5.index t 1 = t.val / 8 % 4)
theorem idx6 : ∀ t : Fin cfg0.N, win0_6.index t 0 = t.val / 32 ∧ win0_6.index t 1 = t.val / 8 % 4 :=
  (by decide +kernel : ∀ t : Fin grid0.N, win0_6.index t 0 = t.val / 32 ∧ win0_6.index t 1 = t.val / 8 % 4)
theorem coord2 : ∀ t : Fin cfg0.N, (grid0.coords t 2).val = t.val % 8 :=
  (by decide +kernel : ∀ t : Fin grid0.N, (grid0.coords t 2).val = t.val % 8)

theorem lt256 (t : Fin cfg0.N) : t.val < 256 := lt_of_lt_of_eq t.isLt (show cfg0.N = 256 from N_0)

/-- The token block. -/
theorem xblk_apply (c : Dev nD) (t : Fin cfg0.N) (r : Fin 1024) (q : Fin 512) :
    (iblk m c 0 t : Vec F S1024x512 .f32) (ix2 r q)
      = m ((c : Thread nD τ).loc main_arg0) (ix2 ⟨1024 * (t.val / 32) + r.val, by have := lt256 t; have := r.isLt; omega⟩
          ⟨512 * (t.val % 8) + q.val, by have := q.isLt; omega⟩) := by
  unfold iblk
  rw [View.read_apply]
  show V m c main_arg0 _ = _
  rw [V_main_arg0]
  congr 1
  apply Shape.idx_ext₂
  · show win0_0.index t 0 * 1024 + 1 * r.val = 1024 * (t.val / 32) + r.val
    rw [(idx0 t).1]; omega
  · show win0_0.index t 1 * 512 + 1 * q.val = 512 * (t.val % 8) + q.val
    rw [(idx0 t).2]; omega

/-- The code block. -/
theorem qblk_apply (c : Dev nD) (t : Fin cfg0.N) (o : Fin 1024) (q : Fin 512) :
    (iblk m c 1 t : Vec F S1024x512 .i32) (ix2 o q)
      = m ((c : Thread nD τ).loc main_arg1) (ix2 ⟨1024 * (t.val / 8 % 4) + o.val, by have := o.isLt; omega⟩
          ⟨512 * (t.val % 8) + q.val, by have := q.isLt; omega⟩) := by
  unfold iblk
  rw [View.read_apply]
  show V m c main_arg1 _ = _
  rw [V_main_arg1]
  congr 1
  apply Shape.idx_ext₂
  · show win0_1.index t 0 * 1024 + 1 * o.val = 1024 * (t.val / 8 % 4) + o.val
    rw [(idx1 t).1]; omega
  · show win0_1.index t 1 * 512 + 1 * q.val = 512 * (t.val % 8) + q.val
    rw [(idx1 t).2]; omega

/-- The block of the factor A. -/
theorem ablk_apply (c : Dev nD) (t : Fin cfg0.N) (ρ : Fin 64) (q : Fin 512) :
    (iblk m c 3 t : Vec F S64x512 .f32) (ix2 ρ q)
      = m ((c : Thread nD τ).loc main_arg3) (ix2 ρ ⟨512 * (t.val % 8) + q.val, by have := q.isLt; omega⟩) := by
  unfold iblk
  rw [View.read_apply]
  show V m c main_arg3 _ = _
  rw [V_main_arg3]
  congr 1
  apply Shape.idx_ext₂
  · show win0_3.index t 0 * 64 + 1 * ρ.val = ρ.val
    rw [(idx3 t).1]; omega
  · show win0_3.index t 1 * 512 + 1 * q.val = 512 * (t.val % 8) + q.val
    rw [(idx3 t).2]; omega

/-- The rows of the factor B. -/
theorem bblk_apply (c : Dev nD) (t : Fin cfg0.N) (o : Fin 1024) (ρ : Fin 64) :
    (iblk m c 4 t : Vec F S1024x64 .f32) (ix2 o ρ)
      = m ((c : Thread nD τ).loc main_arg4) (ix2 ⟨1024 * (t.val / 8 % 4) + o.val, by have := o.isLt; omega⟩ ρ) := by
  unfold iblk
  rw [View.read_apply]
  show V m c main_arg4 _ = _
  rw [V_main_arg4]
  congr 1
  apply Shape.idx_ext₂
  · show win0_4.index t 0 * 1024 + 1 * o.val = 1024 * (t.val / 8 % 4) + o.val
    rw [(idx4 t).1]; omega
  · show win0_4.index t 1 * 64 + 1 * ρ.val = ρ.val
    rw [(idx4 t).2]; omega

/-- The scales as the region finds them: the flat array regrouped 64 to a row. -/
theorem V_scales (c : Dev nD) :
    (V m c main_v0 : S4096x64.Idx → F .f32) = shapeCast S4096x64 (m ((c : Thread nD τ).loc main_arg2)) shapeCasts_S262144_S4096x64 := by
  dsimp only [V, hostOps0]; after_results; rfl

/-- The bias as the region finds it: the vector as one row. -/
theorem V_bias (c : Dev nD) :
    (V m c main_v1 : S1x4096.Idx → F .f32) = shapeCast S1x4096 (m ((c : Thread nD τ).loc main_arg5)) shapeCasts_S4096_S1x4096 := by
  dsimp only [V, hostOps0]; after_results; rfl

/-- The scales of the weight rows. -/
theorem sblk_apply (c : Dev nD) (t : Fin cfg0.N) (o : Fin 1024) (b : Fin 64) :
    (iblk m c 2 t : Vec F S1024x64 .f32) (ix2 o b)
      = m ((c : Thread nD τ).loc main_arg2) (ix1 ⟨(1024 * (t.val / 8 % 4) + o.val) * 64 + b.val, by have := o.isLt; have := b.isLt; omega⟩) := by
  unfold iblk
  rw [View.read_apply]
  show V m c main_v0 _ = _
  rw [V_scales]
  have e : ((cfg0.win 2).blk t).view.emb (ix2 o b)
      = (ix2 (⟨1024 * (t.val / 8 % 4) + o.val, by have := o.isLt; omega⟩ : Fin 4096) b : S4096x64.Idx) := by
    apply Shape.idx_ext₂
    · show win0_2.index t 0 * 1024 + 1 * o.val = 1024 * (t.val / 8 % 4) + o.val
      rw [(idx2 t).1]; omega
    · show win0_2.index t 1 * 64 + 1 * b.val = b.val
      rw [(idx2 t).2]; omega
  rw [e]
  refine shapeCast_apply (s := S262144) (t := S4096x64) _ _ _ _ ?_
  rw [Shape.rowMajor_val_one, Shape.rowMajor_val_two]
  show (1024 * (t.val / 8 % 4) + o.val) * 64 + b.val = (1024 * (t.val / 8 % 4) + o.val) * 64 + b.val
  rfl

/-- The bias entries. -/
theorem biasblk_apply (c : Dev nD) (t : Fin cfg0.N) (o : Fin 1024) :
    (iblk m c 5 t : Vec F S1x1024 .f32) (ix2 (0 : Fin 1) o)
      = m ((c : Thread nD τ).loc main_arg5) (ix1 ⟨1024 * (t.val / 8 % 4) + o.val, by have := o.isLt; omega⟩) := by
  unfold iblk
  rw [View.read_apply]
  show V m c main_v1 _ = _
  rw [V_bias]
  have e : ((cfg0.win 5).blk t).view.emb (ix2 (0 : Fin 1) o)
      = (ix2 (0 : Fin 1) (⟨1024 * (t.val / 8 % 4) + o.val, by have := o.isLt; omega⟩ : Fin 4096) : S1x4096.Idx) := by
    apply Shape.idx_ext₂
    · show win0_5.index t 0 * 1 + 1 * 0 = 0
      rw [(idx5 t).1]
    · show win0_5.index t 1 * 1024 + 1 * o.val = 1024 * (t.val / 8 % 4) + o.val
      rw [(idx5 t).2]; omega
  rw [e]
  refine shapeCast_apply (s := S4096) (t := S1x4096) _ _ _ _ ?_
  rw [Shape.rowMajor_val_one, Shape.rowMajor_val_two]
  show 1024 * (t.val / 8 % 4) + o.val = 0 * 4096 + (1024 * (t.val / 8 % 4) + o.val)
  omega

end Cert.KernelIdeal.Blocks
end
-- ==== Proof.KFold.lean ====
import proofs.«423263_j68539088109776_1_alg».proof.Proof.KTile
import proofs.«423263_j68539088109776_1_alg».proof.Proof.KBlocks
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.SL.Sem
open Idealize.ShloMosaic.ValueIdx Cert.Loftq Cert.KernelIdeal.Body Cert.KernelIdeal.Blocks

/-! ## A run of eight points sums the layer's 4096 terms, 512 at a time

Entry (r, c) of the accumulator of the run with coordinates (I, J) belongs to token R = 1024 I + r and output
O = 1024 J + c. Point K of the run adds `∑ q < 512, term R O (512 K + q)`, where `term R O i` is
`x[R, i] * (W[O, i] + Δ[O, i])`: the scale the point picks for column q, number 8 K + q / 64 of row O's 64, is the scale
of the run of 64 entries that holds entry (O, 512 K + q). -/

variable (m : (ℓ : Loc nD τ sig) → Buf (Elt Ideal) ℓ)

abbrev X (c : Dev nD) : FVec Ideal ⟨2, ![8192, 4096]⟩ .f32 := m ((c : Thread nD τ).loc main_arg0)
abbrev Q (c : Dev nD) : IVec ⟨2, ![4096, 4096]⟩ 32 := m ((c : Thread nD τ).loc main_arg1)
abbrev S (c : Dev nD) : FVec Ideal ⟨1, ![262144]⟩ .f32 := m ((c : Thread nD τ).loc main_arg2)
abbrev A (c : Dev nD) : FVec Ideal ⟨2, ![64, 4096]⟩ .f32 := m ((c : Thread nD τ).loc main_arg3)
abbrev B (c : Dev nD) : FVec Ideal ⟨2, ![4096, 64]⟩ .f32 := m ((c : Thread nD τ).loc main_arg4)
abbrev Bias (c : Dev nD) : FVec Ideal ⟨1, ![4096]⟩ .f32 := m ((c : Thread nD τ).loc main_arg5)

/-- One term of the layer's sum. -/
def term (c : Dev nD) (R : Fin 8192) (O i : Fin 4096) : EReal :=
  X m c (ix2 R i) * (wdeq (Q m c) (S m c) O i + lora (A m c) (B m c) O i)

theorem fusedAt_eq (c : Dev nD) (R : Fin 8192) (O : Fin 4096) :
    fusedAt (X m c) (Q m c) (S m c) (A m c) (B m c) (Bias m c) R O = (∑ i : Fin 4096, term m c R O i) + Bias m c (ix1 O) := rfl

/-- What point n adds at entry y of the accumulator. -/
def addend (c : Dev nD) (n : ℕ) (y : S1024x1024.Idx) : EReal :=
  if h : n < 256 then
    ∑ q : Fin 512, term m c ⟨1024 * (n / 32) + (y 0).val, by have := (y 0).isLt; simp at this; omega⟩
      ⟨1024 * (n / 8 % 4) + (y 1).val, by have := (y 1).isLt; simp at this; omega⟩
      ⟨512 * (n % 8) + q.val, by have := q.isLt; omega⟩
  else 0

abbrev xb (c : Dev nD) (t : Fin cfg0.N) : Vec Ideal S1024x512 .f32 := iblk m c 0 t
abbrev qb (c : Dev nD) (t : Fin cfg0.N) : Vec Ideal S1024x512 .i32 := iblk m c 1 t
abbrev sb (c : Dev nD) (t : Fin cfg0.N) : Vec Ideal S1024x64 .f32 := iblk m c 2 t
abbrev ab (c : Dev nD) (t : Fin cfg0.N) : Vec Ideal S64x512 .f32 := iblk m c 3 t
abbrev bb (c : Dev nD) (t : Fin cfg0.N) : Vec Ideal S1024x64 .f32 := iblk m c 4 t
abbrev biasb (c : Dev nD) (t : Fin cfg0.N) : Vec Ideal S1x1024 .f32 := iblk m c 5 t

theorem xb_apply (c : Dev nD) (t : Fin cfg0.N) (r : Fin 1024) (q : Fin 512) :
    xb m c t (ix2 r q) = X m c (ix2 ⟨1024 * (t.val / 32) + r.val, by have := lt256 t; have := r.isLt; omega⟩
      ⟨512 * (t.val % 8) + q.val, by have := q.isLt; omega⟩) := xblk_apply m c t r q
theorem qb_apply (c : Dev nD) (t : Fin cfg0.N) (o : Fin 1024) (q : Fin 512) :
    qb m c t (ix2 o q) = Q m c (ix2 ⟨1024 * (t.val / 8 % 4) + o.val, by have := o.isLt; omega⟩
      ⟨512 * (t.val % 8) + q.val, by have := q.isLt; omega⟩) := qblk_apply m c t o q
theorem sb_apply (c : Dev nD) (t : Fin cfg0.N) (o : Fin 1024) (b : Fin 64) :
    sb m c t (ix2 o b) = S m c (ix1 ⟨(1024 * (t.val / 8 % 4) + o.val) * 64 + b.val, by have := o.isLt; have := b.isLt; omega⟩) :=
  sblk_apply m c t o b
theorem ab_apply (c : Dev nD) (t : Fin cfg0.N) (ρ : Fin 64) (q : Fin 512) :
    ab m c t (ix2 ρ q) = A m c (ix2 ρ ⟨512 * (t.val % 8) + q.val, by have := q.isLt; omega⟩) := ablk_apply m c t ρ q
theorem bb_apply (c : Dev nD) (t : Fin cfg0.N) (o : Fin 1024) (ρ : Fin 64) :
    bb m c t (ix2 o ρ) = B m c (ix2 ⟨1024 * (t.val / 8 % 4) + o.val, by have := o.isLt; omega⟩ ρ) := bblk_apply m c t o ρ
theorem biasb_apply (c : Dev nD) (t : Fin cfg0.N) (o : Fin 1024) :
    biasb m c t (ix2 (0 : Fin 1) o) = Bias m c (ix1 ⟨1024 * (t.val / 8 % 4) + o.val, by have := o.isLt; omega⟩) := biasblk_apply m c t o

/-- A point's work at an entry: what it found there plus its 512 terms. -/
theorem point_step (c : Dev nD) (hq : AllCodes (Q m c)) (t : Fin cfg0.N) (acc : Vec Ideal S1024x1024 .f32) (r c' : Fin 1024) :
    step (grid0.coords t) (xb m c t) (qb m c t) (sb m c t) (ab m c t) (bb m c t) acc (ix2 r c')
      = acc (ix2 r c') + addend m c t.val (ix2 r c') := by
  have hN := lt256 t
  rw [step_apply (grid0.coords t) (xb m c t) (qb m c t) (sb m c t) (ab m c t) (bb m c t) acc r c'
    (fun q => by rw [qb_apply]; exact hq _)]
  refine congrArg (acc (ix2 r c') + ·) ?_
  unfold addend
  rw [dif_pos hN]
  refine Finset.sum_congr rfl fun q _ => ?_
  rw [xb_apply, qb_apply, sb_apply]
  unfold term wdeq lora
  refine congrArg₂ (· * ·) rfl (congrArg₂ (· + ·) (congrArg₂ (· * ·) rfl ?_) ?_)
  · refine congrArg (S m c) (congrArg ix1 (Fin.ext ?_))
    show (1024 * (t.val / 8 % 4) + c'.val) * 64 + (8 * (grid0.coords t 2).val + q.val / 64)
      = (1024 * (t.val / 8 % 4) + c'.val) * 64 + (512 * (t.val % 8) + q.val) / 64
    rw [coord2 t]; omega
  · refine Finset.sum_congr rfl fun ρ _ => ?_
    rw [bb_apply, ab_apply]

/-- The accumulator's zeros. -/
theorem zeros_apply (y : S1024x1024.Idx) : k0_pay3 (F := Ideal) y = 0 := by
  unfold k0_pay3
  rw [shapeCast_self]
  exact Ideal.ofBits_zero_f32

/-- After point t of a run the accumulator holds the run's addends up to t. -/
theorem scratch_after (c : Dev nD) (hq : AllCodes (Q m c)) (t : Fin cfg0.N) (y : S1024x1024.Idx) :
    (outsAt0 m c t.val t.isLt).2 y = ∑ s ∈ Finset.range (t.val % 8 + 1), addend m c (8 * (t.val / 8) + s) y := by
  have hN := lt256 t
  rw [Value.soutsAt0_0_eq m c t]
  have ha : ∀ (h : 8 * (t.val / 8) < cfg0.N) (y : S1024x1024.Idx),
      Value.scAt0_0 m c (8 * (t.val / 8)) h (VS0_0.read (Elt Ideal) VS0_0.junk) y
        = k0_pay3 (F := Ideal) y + addend m c (8 * (t.val / 8)) y := by
    intro h y
    obtain ⟨r, c', rfl⟩ : ∃ (r c' : Fin 1024), y = ix2 r c' := ⟨y 0, y 1, eq_ix2 y⟩
    have h0 : 8 * (t.val / 8) % 8 = 0 := by omega
    have h1 : ¬ 8 * (t.val / 8) % 8 = 7 := by omega
    unfold Value.scAt0_0
    rw [dif_pos h0, dif_neg h1, sout_A]
    exact point_step m c hq ⟨8 * (t.val / 8), h⟩ (k0_pay3 (F := Ideal)) r c'
  have hg : ∀ (n : ℕ) (h : n < cfg0.N) (acc : S1024x1024.Idx → EReal) (y : S1024x1024.Idx),
      8 * (t.val / 8) < n → n ≤ 8 * (t.val / 8) + 7 → Value.scAt0_0 m c n h acc y = acc y + addend m c n y := by
    intro n h acc y hb he
    obtain ⟨r, c', rfl⟩ : ∃ (r c' : Fin 1024), y = ix2 r c' := ⟨y 0, y 1, eq_ix2 y⟩
    have h0 : ¬ n % 8 = 0 := by omega
    unfold Value.scAt0_0
    by_cases h1 : n % 8 = 7
    · rw [dif_neg h0, dif_pos h1, sout_C]
      exact point_step m c hq ⟨n, h⟩ acc r c'
    · rw [dif_neg h0, dif_neg h1, sout_B]
      exact point_step m c hq ⟨n, h⟩ acc r c'
  rw [Pipeline.accAt_add_apply (fun n h => Value.scAt0_0 m c n h (VS0_0.read (Elt Ideal) VS0_0.junk)) (Value.scAt0_0 m c)
    (k0_pay3 (F := Ideal)) (addend m c) (8 * (t.val / 8)) 7 ha hg (t.val % 8) (by omega) _ y, zeros_apply, zero_add]

/-- The layer's 4096 terms, 512 at a time. -/
theorem sum_blocks (f : Fin 4096 → EReal) :
    (∑ i : Fin 4096, f i) = ∑ s : Fin 8, ∑ q : Fin 512, f ⟨512 * s.val + q.val, by have := s.isLt; have := q.isLt; omega⟩ := by
  have e : (∑ i : Fin (8 * 512), f i) = ∑ p : Fin 8 × Fin 512, f (finProdFinEquiv p) :=
    (Equiv.sum_comp (finProdFinEquiv (m := 8) (n := 512)) (fun i : Fin (8 * 512) => f i)).symm
  rw [show (∑ i : Fin 4096, f i) = ∑ i : Fin (8 * 512), f i from rfl, e, Fintype.sum_prod_type]
  refine Finset.sum_congr rfl fun s _ => Finset.sum_congr rfl fun q _ => congrArg f (Fin.ext ?_)
  show q.val + 512 * s.val = 512 * s.val + q.val
  omega

/-- After a run's last point the accumulator's entry is the layer's whole sum for its token and output. -/
theorem scratch_last (c : Dev nD) (hq : AllCodes (Q m c)) (t : Fin cfg0.N) (h7 : t.val % 8 = 7) (r c' : Fin 1024) :
    (outsAt0 m c t.val t.isLt).2 (ix2 r c')
      = ∑ i : Fin 4096, term m c ⟨1024 * (t.val / 32) + r.val, by have := lt256 t; have := r.isLt; omega⟩
          ⟨1024 * (t.val / 8 % 4) + c'.val, by have := c'.isLt; omega⟩ i := by
  have hN := lt256 t
  rw [scratch_after m c hq t, h7, Finset.sum_range, sum_blocks]
  refine Finset.sum_congr rfl fun s _ => ?_
  have hs := s.isLt
  unfold addend
  rw [dif_pos (by omega)]
  refine Finset.sum_congr rfl fun q _ => ?_
  have e1 : (8 * (t.val / 8) + s.val) / 32 = t.val / 32 := by omega
  have e2 : (8 * (t.val / 8) + s.val) / 8 % 4 = t.val / 8 % 4 := by omega
  have e3 : (8 * (t.val / 8) + s.val) % 8 = s.val := by omega
  congr 1
  · exact Fin.ext (by show 1024 * ((8 * (t.val / 8) + s.val) / 32) + r.val = _; rw [e1])
  · exact Fin.ext (by show 1024 * ((8 * (t.val / 8) + s.val) / 8 % 4) + c'.val = _; rw [e2])
  · exact Fin.ext (by show 512 * ((8 * (t.val / 8) + s.val) % 8) + q.val = _; rw [e3])

end Cert.KernelIdeal.Fold
end
-- ==== Proof.KFinal.lean ====
import proofs.«423263_j68539088109776_1_alg».proof.Proof.KFold
import Idealize.ShloMosaic.Lib.Pipeline.Value
import Idealize.ShloMosaic.Lib.ValueLayout

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Loftq Cert.KernelIdeal.Body Cert.KernelIdeal.Blocks Cert.KernelIdeal.Fold

/-! ## The output array

The output's block (I, J) is written back once, after the last point of its run of eight: the accumulator — the
layer's whole sum for token 1024 I + r and output 1024 J + c — plus the bias entry of the output. The 8 × 4 blocks
tile the [8192 × 4096] array, so the array ends holding the layer's output in the arrangement that adds the two
weights before the product. -/

variable (m : (ℓ : Loc nD τ sig) → Buf (Elt Ideal) ℓ) (ρ : Dev nD → PrngReg)

/-- The layer's output array, of the argument arrays as launched. -/
abbrev out (c : Dev nD) : FVec Ideal ⟨2, ![8192, 4096]⟩ .f32 :=
  fused (X m c) (Q m c) (S m c) (A m c) (B m c) (Bias m c)

/-- At a run's last point the output block is the accumulator's new contents plus the bias row. -/
theorem last_block (c : Dev nD) (t : Fin cfg0.N) (h7 : t.val % 8 = 7) :
    (outsAt0 m c t.val t.isLt).1 = k0_pay2 (outsAt0 m c t.val t.isLt).2 (biasb m c t) := by
  have h0 : ¬ t.val % 8 = 0 := by omega
  rw [outsAt0_C m c t h0 h7]
  dsimp only
  rw [out_C, sout_C]

/-- Entry (r, c) of the accumulator plus the bias row. -/
theorem bias_add_apply (acc : Vec Ideal S1024x1024 .f32) (b : Vec Ideal S1x1024 .f32) (r c' : Fin 1024) :
    k0_pay2 acc b (ix2 r c') = acc (ix2 r c') + b (ix2 (0 : Fin 1) c') := by
  unfold k0_pay2
  rw [addf_apply, shapeCast_self]
  exact congrArg (acc (ix2 r c') + ·) (broadcastTo_1b_ab_apply _ _ r c')

/-- What a run's last point writes back is its block of the layer's output. -/
theorem flushed_eq (c : Dev nD) (hq : AllCodes (Q m c)) (t : Fin cfg0.N) (hf : (cfg0.win 6).flush t = true) :
    (dats m 0 c).flushed 6 t = ((cfg0.win 6).blk t).view.read (Elt Ideal) (out m c) := by
  have h7 : t.val % 8 = 7 := (flush0_6 t).mp hf
  have hN := lt256 t
  rw [Value.flushed6, last_block m c t h7]
  funext y
  obtain ⟨r, c', rfl⟩ : ∃ (r c' : Fin 1024), y = ix2 r c' := ⟨y 0, y 1, eq_ix2 y⟩
  show k0_pay2 (outsAt0 m c t.val t.isLt).2 (biasb m c t) (ix2 r c') = out m c (((cfg0.win 6).blk t).view.emb (ix2 r c'))
  have e : ((cfg0.win 6).blk t).view.emb (ix2 r c')
      = (ix2 (⟨1024 * (t.val / 32) + r.val, by have := r.isLt; omega⟩ : Fin 8192)
          (⟨1024 * (t.val / 8 % 4) + c'.val, by have := c'.isLt; omega⟩ : Fin 4096) : S8192x4096.Idx) := by
    apply Shape.idx_ext₂
    · show win0_6.index t 0 * 1024 + 1 * r.val = 1024 * (t.val / 32) + r.val
      rw [(idx6 t).1]; omega
    · show win0_6.index t 1 * 1024 + 1 * c'.val = 1024 * (t.val / 8 % 4) + c'.val
      rw [(idx6 t).2]; omega
  rw [e, bias_add_apply, scratch_last m c hq t h7, biasb_apply]
  rfl

/-- Every entry of the output array is in the block of its run's last point. -/
theorem cover (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  have hN : cfg0.N = 256 := N_0
  let t : Fin cfg0.N := ⟨32 * ((i 0).val / 1024) + 8 * ((i 1).val / 1024) + 7, by rw [hN]; omega⟩
  have hv : t.val = 32 * ((i 0).val / 1024) + 8 * ((i 1).val / 1024) + 7 := rfl
  refine ⟨t, (flush0_6 t).mpr (by rw [hv]; omega), ?_⟩
  show i ∈ ((View.whole main_v2).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    rw [(idx6 t).1, hv]; omega
  | ⟨1, _⟩ =>
    show win0_6.index t 1 * 1024 ≤ (i 1).val ∧ (i 1).val < win0_6.index t 1 * 1024 + 1024
    rw [(idx6 t).2, hv]; omega

/-- The output array after the run. -/
theorem final (c : Dev nD) (hq : AllCodes (Q m c)) : (dats m 0 c).arrAt 6 cfg0.N = out m c :=
  (dats m 0 c).arrAt_eq_of_cover 6 (out m c) (fun t hf => flushed_eq m c hq t hf) cover

/-- The program's run: the result array holds the layer's output, the arguments are unchanged. -/
theorem run (hq : ∀ c : Dev nD, AllCodes (Q m c)) :
    θ_run defs (onTc (τ := τ) (main (F := Ideal))) ⟨m, fun _ => 0, ρ⟩ fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hq c)), (h c).2⟩) (Value.run_blocks m ρ)

end Cert.KernelIdeal.Final
end
-- ==== Proof.RefRun.lean ====
/-
  The reference program's run, read back as one composed term of its six argument arrays.

  The program is a straight line of 24 host operations: the codes flattened, the signed test against zero and the
  wrapped code (code + 16 where the code is negative), the codebook looked up at the wrapped code, the looked-up
  values regrouped in runs of 64 and multiplied by their run's scale, the result regrouped as a 4096 x 4096 weight,
  the product of the input with that weight, the product of the input with the low-rank product, and the bias.
  Every weakly fair execution terminates with the result buffer at the composition of these operations applied to
  the arguments' launch contents, and with the arguments unchanged.
-/
import proofs.«423263_j68539088109776_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 24 operations, in order. -/
abbrev ops : List (HloOp τ sig (Elt F)) :=
  [ nullary main_cst (fun i => FloatOps.ofBits .f32 (lit0 (S16.rowMajor i))),
    reshape main_arg1 main_v0 rfl shapeCasts_S4096x4096_S16777216,
    nullary main_c (constantI S_ 32 0#32),
    unary main_c main_v1 (broadcastInDim S16777216 ![] bcast_S_S16777216 : (⟨S_, .i32⟩ : BufTy).Contents (Elt F) → (⟨S16777216, .i32⟩ : BufTy).Contents (Elt F)),
    binary main_v0 main_v1 main_v2 (cmpi .slt : (⟨S16777216, .i32⟩ : BufTy).Contents (Elt F) → (⟨S16777216, .i32⟩ : BufTy).Contents (Elt F) → (⟨S16777216, .i1⟩ : BufTy).Contents (Elt F)),
    nullary main_c_0 (constantI S_ 32 16#32),
    unary main_c_0 main_v3 (broadcastInDim S16777216 ![] bcast_S_S16777216 : (⟨S_, .i32⟩ : BufTy).Contents (Elt F) → (⟨S16777216, .i32⟩ : BufTy).Contents (Elt F)),
    binary main_v0 main_v3 main_v4 (addi : (⟨S16777216, .i32⟩ : BufTy).Contents (Elt F) → (⟨S16777216, .i32⟩ : BufTy).Contents (Elt F) → (⟨S16777216, .i32⟩ : BufTy).Contents (Elt F)),
    ternary main_v2 main_v4 main_v0 main_v5 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v5 main_v6 (broadcastInDim S16777216x1 ![0] bcast_S16777216_S16777216x1_0 : (⟨S16777216, .i32⟩ : BufTy).Contents (Elt F) → (⟨S16777216x1, .i32⟩ : BufTy).Contents (Elt F)),
    binary main_cst main_v6 main_v7 ((fun x i => Host.gather gather_S16_S16777216x1_S16777216_n_0_n_n_0_1_1 x i) : (⟨S16, .f32⟩ : BufTy).Contents (Elt F) → (⟨S16777216x1, .i32⟩ : BufTy).Contents (Elt F) → (⟨S16777216, .f32⟩ : BufTy).Contents (Elt F)),
    reshape main_v7 main_v8 rfl shapeCasts_S16777216_S262144x64,
    unary main_arg2 main_v9 (broadcastInDim S262144x1 ![0] bcast_S262144_S262144x1_0 : (⟨S262144, .f32⟩ : BufTy).Contents (Elt F) → (⟨S262144x1, .f32⟩ : BufTy).Contents (Elt F)),
    unary main_v9 main_v10 (broadcastInDim S262144x64 ![0, 1] bcast_S262144x1_S262144x64_0_1 : (⟨S262144x1, .f32⟩ : BufTy).Contents (Elt F) → (⟨S262144x64, .f32⟩ : BufTy).Contents (Elt F)),
    binary main_v8 main_v10 main_v11 (mulf : (⟨S262144x64, .f32⟩ : BufTy).Contents (Elt F) → (⟨S262144x64, .f32⟩ : BufTy).Contents (Elt F) → (⟨S262144x64, .f32⟩ : BufTy).Contents (Elt F)),
    reshape main_v11 main_v12 rfl shapeCasts_S262144x64_S4096x4096,
    binary main_arg0 main_v12 main_v13 ((fun l r => Host.dotGeneral dot_S8192x4096_S4096x4096_S8192x4096_1_1_0_0_n_n none l r) : (⟨S8192x4096, .f32⟩ : BufTy).Contents (Elt F) → (⟨S4096x4096, .f32⟩ : BufTy).Contents (Elt F) → (⟨S8192x4096, .f32⟩ : BufTy).Contents (Elt F)),
    binary main_arg4 main_arg3 main_v14 ((fun l r => Host.dotGeneral dot_S4096x64_S64x4096_S4096x4096_1_0_0_1_n_n none l r) : (⟨S4096x64, .f32⟩ : BufTy).Contents (Elt F) → (⟨S64x4096, .f32⟩ : BufTy).Contents (Elt F) → (⟨S4096x4096, .f32⟩ : BufTy).Contents (Elt F)),
    binary main_arg0 main_v14 main_v15 ((fun l r => Host.dotGeneral dot_S8192x4096_S4096x4096_S8192x4096_1_1_0_0_n_n none l r) : (⟨S8192x4096, .f32⟩ : BufTy).Contents (Elt F) → (⟨S4096x4096, .f32⟩ : BufTy).Contents (Elt F) → (⟨S8192x4096, .f32⟩ : BufTy).Contents (Elt F)),
    unary main_arg5 main_v16 (broadcastInDim S1x4096 ![1] bcast_S4096_S1x4096_1 : (⟨S4096, .f32⟩ : BufTy).Contents (Elt F) → (⟨S1x4096, .f32⟩ : BufTy).Contents (Elt F)),
    unary main_v16 main_v17 (broadcastInDim S8192x4096 ![0, 1] bcast_S1x4096_S8192x4096_0_1 : (⟨S1x4096, .f32⟩ : BufTy).Contents (Elt F) → (⟨S8192x4096, .f32⟩ : BufTy).Contents (Elt F)),
    binary main_v15 main_v17 main_v18 (addf : (⟨S8192x4096, .f32⟩ : BufTy).Contents (Elt F) → (⟨S8192x4096, .f32⟩ : BufTy).Contents (Elt F) → (⟨S8192x4096, .f32⟩ : BufTy).Contents (Elt F)),
    binary main_v13 main_v18 main_v19 (addf : (⟨S8192x4096, .f32⟩ : BufTy).Contents (Elt F) → (⟨S8192x4096, .f32⟩ : BufTy).Contents (Elt F) → (⟨S8192x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., binary_bufs_sub .., binary_bufs_sub .., binary_bufs_sub .., unary_bufs_sub .., unary_bufs_sub .., binary_bufs_sub .., binary_bufs_sub ..⟩

/-- The flattened codes wrapped into 0 … 15: code + 16 where the code is negative, the code itself elsewhere. -/
def wrapped (q : IVec S4096x4096 32) : IVec S16777216 32 :=
  select (cmpi .slt (shapeCast S16777216 q shapeCasts_S4096x4096_S16777216) (broadcastInDim S16777216 ![] bcast_S_S16777216 (constantI S_ 32 0#32)))
    (addi (shapeCast S16777216 q shapeCasts_S4096x4096_S16777216) (broadcastInDim S16777216 ![] bcast_S_S16777216 (constantI S_ 32 16#32)))
    (shapeCast S16777216 q shapeCasts_S4096x4096_S16777216)

/-- The dequantised weight: the codebook at the wrapped codes, in runs of 64 times the run's scale, as 4096 x 4096. -/
def weight (q : IVec S4096x4096 32) (s : FVec F S262144 .f32) : FVec F S4096x4096 .f32 :=
  shapeCast S4096x4096
    (mulf
      (shapeCast S262144x64
        (Host.gather gather_S16_S16777216x1_S16777216_n_0_n_n_0_1_1 (fun i => FloatOps.ofBits .f32 (lit0 (S16.rowMajor i)))
          (broadcastInDim S16777216x1 ![0] bcast_S16777216_S16777216x1_0 (wrapped q)))
        shapeCasts_S16777216_S262144x64)
      (broadcastInDim S262144x64 ![0, 1] bcast_S262144x1_S262144x64_0_1 (broadcastInDim S262144x1 ![0] bcast_S262144_S262144x1_0 s)))
    shapeCasts_S262144x64_S4096x4096

/-- The program's result as a function of its six arguments: the input times the dequantised weight, plus the input
    times the low-rank product plus the bias row. -/
def refTerm (x : FVec F S8192x4096 .f32) (q : IVec S4096x4096 32) (s : FVec F S262144 .f32) (A : FVec F S64x4096 .f32)
    (B : FVec F S4096x64 .f32) (bias : FVec F S4096 .f32) : FVec F S8192x4096 .f32 :=
  addf (Host.dotGeneral dot_S8192x4096_S4096x4096_S8192x4096_1_1_0_0_n_n none x (weight q s))
    (addf
      (Host.dotGeneral dot_S8192x4096_S4096x4096_S8192x4096_1_1_0_0_n_n none x
        (Host.dotGeneral dot_S4096x64_S64x4096_S4096x4096_1_0_0_1_n_n none B A))
      (broadcastInDim S8192x4096 ![0, 1] bcast_S1x4096_S8192x4096_0_1 (broadcastInDim S1x4096 ![1] bcast_S4096_S1x4096_1 bias)))

/-- On every device, for any float values, from any memory with zero counters: every weakly fair execution of the
    program terminates with the result at `refTerm` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v19).trans (by after_results_simp; rfl),
      (h c main_arg0).trans (by after_results),
      (h c main_arg1).trans (by after_results),
      (h c main_arg2).trans (by after_results),
      (h c main_arg3).trans (by after_results),
      (h c main_arg4).trans (by after_results),
      (h c main_arg5).trans (by after_results)⟩)
    (run_seq scopedRefs_eq scopedSems_eq defs main (fun _ => ops) main_eq (fun _ => ops_sub) m ρ)

end Cert.ReferenceIdeal.RefValue

end
-- ==== Proof.RefRead.lean ====
/-
  The reference program's result read entry by entry.

  The composed term of the program's 24 operations is read at an output entry (t, o): each matrix product with one
  contracted axis is the sum over that axis of the products of the operands' entries; the two regroupings of the
  looked-up values keep the row-major position, so the weight's entry (o, i) is the looked-up value at flat position
  o * 4096 + i times the scale of run o * 64 + i / 64; where every code is below 16 the signed test against zero fails,
  the clamp into 0 … 15 changes nothing, and the table's word at the code is the codebook's; the bias is laid along
  the rows. Together: the layer's output as two matrix products and the bias.
-/
import proofs.«423263_j68539088109776_1_alg».proof.Proof.RefRun
import proofs.«423263_j68539088109776_1_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

namespace Cert.Loftq

open Idealize.ShloMosaic Idealize.ShloMosaic.ValueIdx Idealize.ShloMosaic.StableHlo.Predicate
open Cert.ReferenceIdeal Cert.ReferenceIdeal.Gen Cert.ReferenceIdeal.RefValue

/-! ## Two spellings of an index by its coordinates -/

/-- The rank-1 index at a coordinate, in its two spellings. -/
theorem ofFin_eq_ix1 {n : Nat} (p : Fin n) : Shape.Idx.ofFin p = ix1 p := by
  funext a; match a with | ⟨0, _⟩ => rfl

/-- The rank-2 index at two coordinates, in its two spellings. -/
theorem ij_eq_ix2 {n m : Nat} (p : Fin n) (r : Fin m) : ij p r = ix2 p r := by
  funext a; match a with | ⟨0, _⟩ => rfl | ⟨1, _⟩ => rfl

/-! ## The two matrix products read at an entry -/

/-- Input times weight, left operand, row axis: the output's row. -/
theorem xw_lhs0 (t : Fin 8192) (o : Fin 4096) (k : dot_S8192x4096_S4096x4096_S8192x4096_1_1_0_0_n_n.contr.Idx) :
    (dot_S8192x4096_S4096x4096_S8192x4096_1_1_0_0_n_n.lhsIdx (ix2 t o) k 0).val = t.val := by
  simp [DotDims.lhsIdx, dot_S8192x4096_S4096x4096_S8192x4096_1_1_0_0_n_n]; rfl

/-- Input times weight, left operand, column axis: the contracted position. -/
theorem xw_lhs1 (t : Fin 8192) (o : Fin 4096) (i : Fin 4096) :
    (dot_S8192x4096_S4096x4096_S8192x4096_1_1_0_0_n_n.lhsIdx (ix2 t o)
      ((contrEquiv1 dot_S8192x4096_S4096x4096_S8192x4096_1_1_0_0_n_n 4096 rfl rfl).symm i) 1).val = i.val :=
  (dot_S8192x4096_S4096x4096_S8192x4096_1_1_0_0_n_n.lhsIdx_val_of_single rfl (ix2 t o) _).trans
    (contrEquiv1_symm_val dot_S8192x4096_S4096x4096_S8192x4096_1_1_0_0_n_n 4096 rfl rfl i)

/-- Input times weight, right operand, row axis: the output's column (the weight is stored output-major). -/
theorem xw_rhs0 (t : Fin 8192) (o : Fin 4096) (k : dot_S8192x4096_S4096x4096_S8192x4096_1_1_0_0_n_n.contr.Idx) :
    (dot_S8192x4096_S4096x4096_S8192x4096_1_1_0_0_n_n.rhsIdx (ix2 t o) k 0).val = o.val := by
  simp [DotDims.rhsIdx, dot_S8192x4096_S4096x4096_S8192x4096_1_1_0_0_n_n]; rfl

/-- Input times weight, right operand, column axis: the contracted position. -/
theorem xw_rhs1 (t : Fin 8192) (o : Fin 4096) (i : Fin 4096) :
    (dot_S8192x4096_S4096x4096_S8192x4096_1_1_0_0_n_n.rhsIdx (ix2 t o)
      ((contrEquiv1 dot_S8192x4096_S4096x4096_S8192x4096_1_1_0_0_n_n 4096 rfl rfl).symm i) 1).val = i.val :=
  (dot_S8192x4096_S4096x4096_S8192x4096_1_1_0_0_n_n.rhsIdx_val_of_single rfl (ix2 t o) _).trans
    (contrEquiv1_symm_val dot_S8192x4096_S4096x4096_S8192x4096_1_1_0_0_n_n 4096 rfl rfl i)

/-- The product of the input with an output-major weight, at (t, o): the sum over i of x[t, i] * w[o, i]. -/
theorem xw_apply (l : FVec Ideal S8192x4096 .f32) (r : FVec Ideal S4096x4096 .f32) (t : Fin 8192) (o : Fin 4096) :
    Host.dotGeneral (F := Ideal) dot_S8192x4096_S4096x4096_S8192x4096_1_1_0_0_n_n none l r (ix2 t o)
      = ∑ i : Fin 4096, l (ix2 t i) * r (ix2 o i) := by
  show FloatOps.dotGeneral _ none _ l r (ix2 t o) = _
  rw [Ideal.dotGeneral_apply,
    ← Equiv.sum_comp (contrEquiv1 dot_S8192x4096_S4096x4096_S8192x4096_1_1_0_0_n_n 4096 rfl rfl).symm]
  refine Finset.sum_congr rfl fun i _ => ?_
  have hl : dot_S8192x4096_S4096x4096_S8192x4096_1_1_0_0_n_n.lhsIdx (ix2 t o)
      ((contrEquiv1 dot_S8192x4096_S4096x4096_S8192x4096_1_1_0_0_n_n 4096 rfl rfl).symm i) = ix2 t i := by
    funext ax; apply Fin.ext
    match ax with
    | ⟨0, _⟩ => exact xw_lhs0 t o _
    | ⟨1, _⟩ => exact xw_lhs1 t o i
  have hr : dot_S8192x4096_S4096x4096_S8192x4096_1_1_0_0_n_n.rhsIdx (ix2 t o)
      ((contrEquiv1 dot_S8192x4096_S4096x4096_S8192x4096_1_1_0_0_n_n 4096 rfl rfl).symm i) = ix2 o i := by
    funext ax; apply Fin.ext
    match ax with
    | ⟨0, _⟩ => exact xw_rhs0 t o _
    | ⟨1, _⟩ => exact xw_rhs1 t o i
  rw [hl, hr]

/-- The low-rank product, left operand, row axis: the output's row. -/
theorem ba_lhs0 (o i : Fin 4096) (k : dot_S4096x64_S64x4096_S4096x4096_1_0_0_1_n_n.contr.Idx) :
    (dot_S4096x64_S64x4096_S4096x4096_1_0_0_1_n_n.lhsIdx (ix2 o i) k 0).val = o.val := by
  simp [DotDims.lhsIdx, dot_S4096x64_S64x4096_S4096x4096_1_0_0_1_n_n]; rfl

/-- The low-rank product, left operand, column axis: the contracted position. -/
theorem ba_lhs1 (o i : Fin 4096) (r : Fin 64) :
    (dot_S4096x64_S64x4096_S4096x4096_1_0_0_1_n_n.lhsIdx (ix2 o i)
      ((contrEquiv1 dot_S4096x64_S64x4096_S4096x4096_1_0_0_1_n_n 64 rfl rfl).symm r) 1).val = r.val :=
  (dot_S4096x64_S64x4096_S4096x4096_1_0_0_1_n_n.lhsIdx_val_of_single rfl (ix2 o i) _).trans
    (contrEquiv1_symm_val dot_S4096x64_S64x4096_S4096x4096_1_0_0_1_n_n 64 rfl rfl r)

/-- The low-rank product, right operand, row axis: the contracted position. -/
theorem ba_rhs0 (o i : Fin 4096) (r : Fin 64) :
    (dot_S4096x64_S64x4096_S4096x4096_1_0_0_1_n_n.rhsIdx (ix2 o i)
      ((contrEquiv1 dot_S4096x64_S64x4096_S4096x4096_1_0_0_1_n_n 64 rfl rfl).symm r) 0).val = r.val :=
  (dot_S4096x64_S64x4096_S4096x4096_1_0_0_1_n_n.rhsIdx_val_of_single rfl (ix2 o i) _).trans
    (contrEquiv1_symm_val dot_S4096x64_S64x4096_S4096x4096_1_0_0_1_n_n 64 rfl rfl r)

/-- The low-rank product, right operand, column axis: the output's column. -/
theorem ba_rhs1 (o i : Fin 4096) (k : dot_S4096x64_S64x4096_S4096x4096_1_0_0_1_n_n.contr.Idx) :
    (dot_S4096x64_S64x4096_S4096x4096_1_0_0_1_n_n.rhsIdx (ix2 o i) k 1).val = i.val := by
  simp [DotDims.rhsIdx, dot_S4096x64_S64x4096_S4096x4096_1_0_0_1_n_n]; rfl

/-- The low-rank product at (o, i): the sum over r of B[o, r] * A[r, i]. -/
theorem ba_apply (B : FVec Ideal S4096x64 .f32) (A : FVec Ideal S64x4096 .f32) (o i : Fin 4096) :
    Host.dotGeneral (F := Ideal) dot_S4096x64_S64x4096_S4096x4096_1_0_0_1_n_n none B A (ix2 o i)
      = ∑ r : Fin 64, B (ix2 o r) * A (ix2 r i) := by
  show FloatOps.dotGeneral _ none _ B A (ix2 o i) = _
  rw [Ideal.dotGeneral_apply,
    ← Equiv.sum_comp (contrEquiv1 dot_S4096x64_S64x4096_S4096x4096_1_0_0_1_n_n 64 rfl rfl).symm]
  refine Finset.sum_congr rfl fun r _ => ?_
  have hl : dot_S4096x64_S64x4096_S4096x4096_1_0_0_1_n_n.lhsIdx (ix2 o i)
      ((contrEquiv1 dot_S4096x64_S64x4096_S4096x4096_1_0_0_1_n_n 64 rfl rfl).symm r) = ix2 o r := by
    funext ax; apply Fin.ext
    match ax with
    | ⟨0, _⟩ => exact ba_lhs0 o i _
    | ⟨1, _⟩ => exact ba_lhs1 o i r
  have hr : dot_S4096x64_S64x4096_S4096x4096_1_0_0_1_n_n.rhsIdx (ix2 o i)
      ((contrEquiv1 dot_S4096x64_S64x4096_S4096x4096_1_0_0_1_n_n 64 rfl rfl).symm r) = ix2 r i := by
    funext ax; apply Fin.ext
    match ax with
    | ⟨0, _⟩ => exact ba_rhs0 o i r
    | ⟨1, _⟩ => exact ba_rhs1 o i _
  rw [hl, hr]

/-! ## The codes: flattened, wrapped, looked up -/

/-- The flattened codes at flat position o * 4096 + i are the code at (o, i). -/
theorem flat_apply (q : IVec S4096x4096 32) (o i : Fin 4096) (p : Fin 16777216) (hp : p.val = o.val * 4096 + i.val) :
    shapeCast S16777216 q shapeCasts_S4096x4096_S16777216 (ix1 p) = q (ix2 o i) :=
  shapeCast_apply q shapeCasts_S4096x4096_S16777216 (ix1 p) (ix2 o i) (by
    rw [Shape.rowMajor_val_two, Shape.rowMajor_val_one]
    show o.val * 4096 + i.val = p.val
    omega)

/-- A code below 16 is not negative as a signed word: the test against zero fails, so the wrapped code is the code. -/
theorem wrap_code (w : BitVec 32) (hw : w.toNat < 16) :
    Scalar.select (IntOp.cmpi .slt w 0#32) (IntOp.addi w 16#32) w = w := by
  have h0 : IntOp.cmpi .slt w 0#32 = 0#1 :=
    eq_zero_of_ne_one fun h => Nat.not_lt_zero _ ((slt_iff_toNat (a := w) (b := 0#32) (by omega) (by decide)).mp h)
  rw [h0, select_zero]

/-- The wrapped codes at flat position o * 4096 + i, all codes below 16: the code at (o, i). -/
theorem wrapped_apply (q : IVec S4096x4096 32) (hq : AllCodes q) (o i : Fin 4096) (p : Fin 16777216)
    (hp : p.val = o.val * 4096 + i.val) : wrapped q (ix1 p) = q (ix2 o i) := by
  unfold wrapped
  rw [select_apply]
  show Scalar.select (IntOp.cmpi .slt (shapeCast S16777216 q shapeCasts_S4096x4096_S16777216 (ix1 p)) 0#32)
      (IntOp.addi (shapeCast S16777216 q shapeCasts_S4096x4096_S16777216 (ix1 p)) 16#32)
      (shapeCast S16777216 q shapeCasts_S4096x4096_S16777216 (ix1 p)) = _
  rw [flat_apply q o i p hp]
  exact wrap_code _ (hq _)

/-- The codebook read at a word equal to a code below 16 (the read takes the word signed and clamps it into 0 … 15, which
    changes nothing below 16): the sixteen table words are the sixteen code words, case by case. -/
theorem table_code (v w : BitVec 32) (hv : v = w) (hw : w.toNat < 16) (h : min v.toInt.toNat (16 - 1) < 16) :
    (fun i : S16.Idx => FloatOps.ofBits (F := Ideal) .f32 (lit0 (S16.rowMajor i)))
      (Shape.Idx.ofFin ⟨min v.toInt.toNat (16 - 1), h⟩) = nf4 w := by
  subst hv
  have e : (v.toInt.toNat : Nat) = v.toNat := by
    rw [toInt_eq_toNat_of_lt (by omega)]; exact Int.toNat_natCast _
  have hm : min v.toInt.toNat (16 - 1) = v.toNat := by rw [e]; omega
  have hr : S16.rowMajor (Shape.Idx.ofFin ⟨min v.toInt.toNat (16 - 1), h⟩) = ⟨v.toNat, hw⟩ :=
    Fin.ext (by rw [Shape.rowMajor_val_one]; exact hm)
  show Ideal.ofBits .f32 (lit0 (S16.rowMajor _)) = Ideal.ofBits .f32 (codeWord v.toNat)
  rw [hr]
  congr 1
  generalize v.toNat = n at hw
  interval_cases n <;> rfl

/-- The looked-up values at flat position o * 4096 + i: the codebook value of the code at (o, i). -/
theorem vals_apply (q : IVec S4096x4096 32) (hq : AllCodes q) (o i : Fin 4096) (p : Fin 16777216)
    (hp : p.val = o.val * 4096 + i.val) :
    Host.gather gather_S16_S16777216x1_S16777216_n_0_n_n_0_1_1
        (fun i => FloatOps.ofBits (F := Ideal) .f32 (lit0 (S16.rowMajor i)))
        (broadcastInDim S16777216x1 ![0] bcast_S16777216_S16777216x1_0 (wrapped q)) (ix1 p) = nf4 (q (ix2 o i)) := by
  rw [← ofFin_eq_ix1]
  refine (gather_take gather_S16_S16777216x1_S16777216_n_0_n_n_0_1_1 rfl rfl rfl rfl _ _ p (by decide)).trans ?_
  exact table_code _ _
    ((bcast_col1 bcast_S16777216_S16777216x1_0 (wrapped q) p).trans
      ((congrArg (wrapped q) (ofFin_eq_ix1 p)).trans (wrapped_apply q hq o i p hp))) (hq _) _

/-! ## The scale, the weight, the bias -/

/-- The scales laid along the runs: at (g, c) the scale of run g. -/
theorem scale_apply (s : FVec Ideal S262144 .f32) (g : Fin 262144) (c : Fin 64) :
    broadcastInDim S262144x64 ![0, 1] bcast_S262144x1_S262144x64_0_1
      (broadcastInDim S262144x1 ![0] bcast_S262144_S262144x1_0 s) (ix2 g c) = s (ix1 g) := by
  rw [← ij_eq_ix2, bcast_rows, ofFin_eq_ix1]

/-- The dequantised weight at (o, i): both regroupings keep the flat position o * 4096 + i, whose run is
    o * 64 + i / 64 and whose place in the run is i % 64. -/
theorem weight_apply (q : IVec S4096x4096 32) (s : FVec Ideal S262144 .f32) (hq : AllCodes q) (o i : Fin 4096) :
    weight (F := Ideal) q s (ix2 o i) = wdeq q s o i := by
  have hi := i.isLt
  have ho := o.isLt
  unfold weight wdeq
  rw [shapeCast_apply _ shapeCasts_S262144x64_S4096x4096 (ix2 o i)
    (ix2 (scalePos o i) (⟨i.val % 64, by omega⟩ : Fin 64)) (by
      rw [Shape.rowMajor_val_two, Shape.rowMajor_val_two]
      show (o.val * 64 + i.val / 64) * 64 + i.val % 64 = o.val * 4096 + i.val
      omega)]
  rw [mulf_apply, scale_apply]
  rw [shapeCast_apply _ shapeCasts_S16777216_S262144x64 (ix2 (scalePos o i) (⟨i.val % 64, by omega⟩ : Fin 64))
    (ix1 (⟨o.val * 4096 + i.val, by omega⟩ : Fin 16777216)) (by
      rw [Shape.rowMajor_val_one, Shape.rowMajor_val_two]
      show o.val * 4096 + i.val = (o.val * 64 + i.val / 64) * 64 + i.val % 64
      omega)]
  rw [vals_apply q hq o i _ rfl]

/-- The bias laid along the rows: at (t, o) the bias at o. -/
theorem bias_apply (b : FVec Ideal S4096 .f32) (t : Fin 8192) (o : Fin 4096) :
    broadcastInDim S8192x4096 ![0, 1] bcast_S1x4096_S8192x4096_0_1
      (broadcastInDim S1x4096 ![1] bcast_S4096_S1x4096_1 b) (ix2 t o) = b (ix1 o) := by
  rw [← ij_eq_ix2, bcast_cols, ofFin_eq_ix1]

/-! ## The whole result -/

/-- The reference program's result, all codes below 16, is the layer in its second arrangement: entry by entry the two
    matrix products are the sums over the contracted coordinate, the weight's entry is the codebook value times its
    run's scale, and the last summand is the bias. -/
theorem refTerm_eq_split (x : FVec Ideal ⟨2, ![8192, 4096]⟩ .f32) (q : IVec ⟨2, ![4096, 4096]⟩ 32) (s : FVec Ideal ⟨1, ![262144]⟩ .f32)
    (A : FVec Ideal ⟨2, ![64, 4096]⟩ .f32) (B : FVec Ideal ⟨2, ![4096, 64]⟩ .f32) (bias : FVec Ideal ⟨1, ![4096]⟩ .f32)
    (hq : AllCodes q) :
    Cert.ReferenceIdeal.RefValue.refTerm (F := Ideal) x q s A B bias = split x q s A B bias := by
  funext j
  obtain ⟨t, o, rfl⟩ : ∃ (t : Fin 8192) (o : Fin 4096), j = ix2 t o := ⟨j 0, j 1, eq_ix2 j⟩
  show refTerm (F := Ideal) x q s A B bias (ix2 t o) = splitAt x q s A B bias t o
  unfold refTerm splitAt
  rw [addf_apply, addf_apply, xw_apply, xw_apply, bias_apply]
  have hw : ∀ i : Fin 4096, x (ix2 t i) * weight (F := Ideal) q s (ix2 o i) = x (ix2 t i) * wdeq q s o i :=
    fun i => by rw [weight_apply q s hq]
  have hl : ∀ i : Fin 4096,
      x (ix2 t i) * Host.dotGeneral (F := Ideal) dot_S4096x64_S64x4096_S4096x4096_1_0_0_1_n_n none B A (ix2 o i)
        = x (ix2 t i) * lora A B o i :=
    fun i => by rw [ba_apply]; unfold lora; rfl
  rw [Finset.sum_congr rfl fun i _ => hw i, Finset.sum_congr rfl fun i _ => hl i]

end Cert.Loftq

end
-- ==== Proof.Algebra.lean ====
/-
  The two arrangements of the quantised linear layer agree where every float entry is a real number.

  On the extended reals addition is commutative and associative without exception, but the product
  distributes over a sum only away from the infinities (`⊤ * (⊤ + ⊥)` and `⊤ * ⊤ + ⊤ * ⊥` differ in
  general). Here every factor is a real number: each codebook value is a finite IEEE pattern, and the
  activations, scales and low-rank factors are real by hypothesis. So each weight entry and each
  correction entry is the coercion of a real number, the per-term identity `a * (w + d) = a * w + a * d`
  is the distributive law of ℝ read through the coercion, and the rest is
  `∑ (f + g) = ∑ f + ∑ g` and associativity of `+`.
-/
import proofs.«423263_j68539088109776_1_alg».proof.Proof.Spec
import Mathlib.Data.EReal.Basic
import Mathlib.Algebra.BigOperators.Group.Finset.Basic

noncomputable section

namespace Cert.Loftq

open Idealize.ShloMosaic Idealize.ShloMosaic.ValueIdx

/-! ### The codebook values are real numbers -/

/-- An f32 pattern whose exponent field is not all ones denotes a real number: it is a zero, a
    subnormal or a normal, and both of those arms of the IEEE reading are coercions of reals. -/
private theorem ofBits_f32_real (b : BitVec 32) (h : (b.extractLsb' 23 8).toNat ≠ 255) :
    ∃ r : ℝ, Ideal.ofBits .f32 b = (r : EReal) := by
  have h' : ¬ (b.extractLsb' 23 8).toNat = 2 ^ 8 - 1 := by simpa using h
  show ∃ r : ℝ, Ideal.ieee 8 23 b = (r : EReal)
  unfold Ideal.ieee
  simp only [if_neg h']
  split
  · exact ⟨_, rfl⟩
  · exact ⟨_, rfl⟩

/-- None of the seventeen codebook words has an all-ones exponent field. -/
private theorem codeWord_exp (n : Nat) : ((codeWord n).extractLsb' 23 8).toNat ≠ 255 := by
  unfold codeWord
  split <;> decide

/-- Every codebook value is a real number. -/
theorem nf4_real (w : BitVec 32) : ∃ r : ℝ, nf4 w = (r : EReal) :=
  ofBits_f32_real _ (codeWord_exp _)

/-! ### Finite sums of reals -/

/-- The coercion ℝ → EReal commutes with finite sums (it is additive and sends 0 to 0). -/
private theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ### The two arrangements, entry by entry -/

/-- At one output entry: distribute each term over the two weights (a law of ℝ, available because
    every factor is real), split the sum of sums, and reassociate. -/
private theorem splitAt_eq_fusedAt (x : FVec Ideal ⟨2, ![8192, 4096]⟩ .f32) (q : IVec ⟨2, ![4096, 4096]⟩ 32)
    (s : FVec Ideal ⟨1, ![262144]⟩ .f32) (A : FVec Ideal ⟨2, ![64, 4096]⟩ .f32)
    (B : FVec Ideal ⟨2, ![4096, 64]⟩ .f32) (bias : FVec Ideal ⟨1, ![4096]⟩ .f32)
    (hx : AllReal x) (hs : AllReal s) (hA : AllReal A) (hB : AllReal B)
    (t : Fin 8192) (o : Fin 4096) :
    splitAt x q s A B bias t o = fusedAt x q s A B bias t o := by
  choose xr hxr using hx
  choose sr hsr using hs
  choose Ar hAr using hA
  choose Br hBr using hB
  choose nr hnr using nf4_real
  -- each weight entry is a product of two reals
  have hw : ∀ i, wdeq q s o i = ((nr (q (ix2 o i)) * sr (ix1 (scalePos o i)) : ℝ) : EReal) := by
    intro i
    unfold wdeq
    rw [hnr, hsr, EReal.coe_mul]
  -- each correction entry is a finite sum of products of two reals
  have hl : ∀ i, lora A B o i = ((∑ r : Fin 64, Br (ix2 o r) * Ar (ix2 r i) : ℝ) : EReal) := by
    intro i
    unfold lora
    rw [← coe_sum]
    refine Finset.sum_congr rfl fun r _ => ?_
    rw [hBr, hAr, EReal.coe_mul]
  unfold splitAt fusedAt
  rw [← add_assoc, ← Finset.sum_add_distrib]
  congr 1
  refine Finset.sum_congr rfl fun i _ => ?_
  rw [hw, hl, hxr]
  simp only [← EReal.coe_mul, ← EReal.coe_add, mul_add]

/-- The two arrangements are the same array. -/
theorem split_eq_fused (x : FVec Ideal ⟨2, ![8192, 4096]⟩ .f32) (q : IVec ⟨2, ![4096, 4096]⟩ 32) (s : FVec Ideal ⟨1, ![262144]⟩ .f32)
    (A : FVec Ideal ⟨2, ![64, 4096]⟩ .f32) (B : FVec Ideal ⟨2, ![4096, 64]⟩ .f32) (bias : FVec Ideal ⟨1, ![4096]⟩ .f32)
    (hx : AllReal x) (hs : AllReal s) (hA : AllReal A) (hB : AllReal B) :
    split x q s A B bias = fused x q s A B bias := by
  funext j
  exact splitAt_eq_fusedAt x q s A B bias hx hs hA hB (j 0) (j 1)

end Cert.Loftq

end
-- ==== Proof.PreFacts.lean ====
/-
  What the precondition says of the argument arrays, entry by entry.

  The precondition is a conjunction of six tests, each an "all" over one array, and-ed together and stated to be 1:
  for each of the five float arrays (the bias among them), every entry v has |v| < +∞; for the array of code words, every
  entry w has 0 ≤ w and w < 16, both read signed. An "all" that is 1 had a 1 at every entry. On the extended reals
  |v| is max v (-v) and the f32 pattern 0x7F800000 is ⊤, so an entry with |v| < ⊤ is neither ⊤ nor ⊥: it is a real
  number. A 32-bit word that is nonnegative read signed reads the same unsigned, so below 16 signed is below 16
  unsigned: the word is one of the sixteen codes.
-/
import proofs.«423263_j68539088109776_1_alg».proof.Pre_finite_inputs
import proofs.«423263_j68539088109776_1_alg».proof.Proof.Gen.Pre_finite_inputs
import proofs.«423263_j68539088109776_1_alg».proof.Proof.Spec
import Idealize.ShloMosaic.Lib.ReduceAll
import Idealize.ShloMosaic.Lib.StableHlo.Predicate
import Idealize.ShloMosaic.Lib.ValueIdx

noncomputable section

namespace Cert.Loftq

open Idealize.ShloMosaic Idealize.ShloMosaic.ValueIdx

/-- The f32 pattern 0x7F800000 (exponent all ones, fraction zero, sign clear) denotes +∞. -/
theorem inf_word : Ideal.ofBits .f32 0x7F800000#32 = (⊤ : EReal) := by
  simp [Ideal.ofBits, Ideal.ieee]

/-- An extended real whose absolute value max v (-v) is below ⊤ is a real number: at ⊤ the maximum is ⊤, and at
    ⊥ it is -⊥ = ⊤. -/
theorem real_of_abs_lt_top (v : EReal) (h : max v (-v) < ⊤) : ∃ r : ℝ, v = (r : EReal) := by
  induction v using EReal.rec with
  | bot => simp at h
  | top => simp at h
  | coe r => exact ⟨r, rfl⟩

/-- The element test of the float arrays: |v| < +∞ holding (the comparison's word is 1) makes v real. -/
theorem real_of_test (v : Ideal .f32)
    (h : FloatOps.cmpf .olt (FloatOps.hostAbsf v) (Ideal.ofBits .f32 0x7F800000#32) = 1#1) : ∃ r : ℝ, v = (r : EReal) := by
  -- on the extended reals the comparison is the order's and the absolute value is max v (-v), by definition
  change Ideal.cmp .olt (max v (-v)) (Ideal.ofBits .f32 0x7F800000#32) = 1#1 at h
  rw [inf_word] at h
  simp only [Ideal.cmp, StableHlo.Predicate.ofBool_eq_one_iff, decide_eq_true_eq] at h
  exact real_of_abs_lt_top v h

/-- The rank-0 shape has one index. -/
instance subsingleton_scalar_idx : Subsingleton (⟨0, ![]⟩ : Shape).Idx := ⟨fun a b => funext fun d => d.elim0⟩

/-- One float array's conjunct: if the "all" of the tests |v k| < +∞ over the whole array is 1, every entry is real. -/
theorem allReal_of_all {S : Shape} {axes : List (Fin S.rank)} (v : FVec Ideal S .f32)
    (hb : (⟨0, ![]⟩ : Shape).BroadcastsInDim S (![] : Fin 0 → Fin S.rank)) (hr : S.ReducesTo axes ⟨0, ![]⟩)
    (h0 : 0 < (⟨0, ![]⟩ : Shape).numel) (init : IVec ⟨0, ![]⟩ 1)
    (e : Host.reduce IntOp.andi
          (cmpf .olt (Host.absf v) (broadcastInDim S ![] hb (constant (F := Ideal) ⟨0, ![]⟩ .f32 0x7F800000#32))) init hr h0 ix0 = 1#1) :
    AllReal v := by
  intro k
  have hk := Host.reduce_andi_all _ init hr h0 ix0 e k
  rw [cmpf_apply, StableHlo.Predicate.bcast_scalar hb h0, constant_apply] at hk
  exact real_of_test (v k) hk

/-- A 32-bit word that is at least 0 and below 16, both read signed, is below 16 read unsigned. -/
theorem code_of_tests (w : BitVec 32) (h0 : IntOp.cmpi .sge w 0#32 = 1#1) (h16 : IntOp.cmpi .slt w 16#32 = 1#1) :
    w.toNat < 16 := by
  rw [IntOp.cmpi_sge] at h0
  rw [IntOp.cmpi_slt] at h16
  have z : (0#32 : BitVec 32).toInt = 0 := by decide
  have s : (16#32 : BitVec 32).toInt = 16 := by decide
  rw [z] at h0
  rw [s] at h16
  have hw := w.isLt
  rw [BitVec.toInt_eq_toNat_cond] at h0 h16
  split at h0 <;> omega

/-- The integer array's conjunct: if the "all" of the tests (0 ≤ w) and (w < 16), signed, over the whole array is 1,
    every word is below 16. -/
theorem codes_of_all {S : Shape} {axes : List (Fin S.rank)} (q : IVec S 32)
    (hb : (⟨0, ![]⟩ : Shape).BroadcastsInDim S (![] : Fin 0 → Fin S.rank)) (hr : S.ReducesTo axes ⟨0, ![]⟩)
    (h0 : 0 < (⟨0, ![]⟩ : Shape).numel) (init : IVec ⟨0, ![]⟩ 1)
    (e : Host.reduce IntOp.andi
          (andi (cmpi .sge q (broadcastInDim S ![] hb (constantI ⟨0, ![]⟩ 32 0#32)))
                (cmpi .slt q (broadcastInDim S ![] hb (constantI ⟨0, ![]⟩ 32 16#32)))) init hr h0 ix0 = 1#1) :
    ∀ k, (q k).toNat < 16 := by
  intro k
  have hk := Host.reduce_andi_all _ init hr h0 ix0 e k
  -- the and and the two comparisons act entry by entry
  change IntOp.andi (IntOp.cmpi .sge (q k) (broadcastInDim S ![] hb (constantI ⟨0, ![]⟩ 32 0#32) k))
      (IntOp.cmpi .slt (q k) (broadcastInDim S ![] hb (constantI ⟨0, ![]⟩ 32 16#32) k)) = 1#1 at hk
  rw [StableHlo.Predicate.bcast_scalar hb h0, StableHlo.Predicate.bcast_scalar hb h0, IntOp.andi_eq_one] at hk
  exact code_of_tests (q k) hk.1 hk.2

/-- The precondition read back: the six "all"s are and-ed left to right in the order x, s, A, B, bias, q; the result being 1
    makes each of them 1, and each says its array's entries are real numbers (the codes: below 16). -/
theorem facts_of_pre [Cert.Pre_finite_inputs.Facts]
    (x : FVec Ideal ⟨2, ![8192, 4096]⟩ .f32) (q : IVec ⟨2, ![4096, 4096]⟩ 32) (s : FVec Ideal ⟨1, ![262144]⟩ .f32)
    (A : FVec Ideal ⟨2, ![64, 4096]⟩ .f32) (B : FVec Ideal ⟨2, ![4096, 64]⟩ .f32) (bias : FVec Ideal ⟨1, ![4096]⟩ .f32)
    (h : Cert.Pre_finite_inputs.fn (F := Ideal) x q s A B bias = fun _ => 1#1) :
    AllReal x ∧ AllCodes q ∧ AllReal s ∧ AllReal A ∧ AllReal B := by
  have e := congrFun h ix0
  dsimp only [Cert.Pre_finite_inputs.fn, Cert.Pre_finite_inputs.fn_part1] at e
  -- the scalar ands, read at the one index
  change IntOp.andi (IntOp.andi (IntOp.andi (IntOp.andi (IntOp.andi _ _) _) _) _) _ = 1#1 at e
  simp only [IntOp.andi_eq_one] at e
  obtain ⟨⟨⟨⟨⟨hx, hs⟩, hA⟩, hB⟩, -⟩, hq⟩ := e
  exact ⟨allReal_of_all x _ _ _ _ hx, codes_of_all q _ _ _ _ hq, allReal_of_all s _ _ _ _ hs,
    allReal_of_all A _ _ _ _ hA, allReal_of_all B _ _ _ _ hB⟩

end Cert.Loftq

end
-- ==== Proof.lean ====
/-
  A linear layer with an NF4-quantised weight and a low-rank correction: the kernel against its reference.

  Both programs compute, for token t and output o, the sum over the 4096 input features i of
  x[t, i] · (W[o, i] + Δ[o, i]) plus bias[o], where W[o, i] is the codebook value of the 4-bit code q[o, i] times the
  scale of the run of 64 consecutive weight entries holding (o, i), and Δ = B · A is the rank-64 correction.
  The kernel walks an 8 × 4 × 8 grid: for each 1024 × 1024 output block it accumulates, over eight steps of 512
  features, the product of a token block with the weight tile W + Δ built in place (the codebook lookup a chain of
  fifteen selects, the scale picked by eight range tests on the column), and adds the bias after the last step.
  The reference looks the codes up in the table, scales, and forms x · Wᵀ + (x · (B · A)ᵀ + bias).
  The two agree on the extended reals where every float entry is a real number (the product distributes over
  W + Δ there) and every code is one of the sixteen codes 0 … 15 (outside that range the lookups differ: the chain of
  selects falls back to code 0's value, the table lookup wraps or clamps).
-/
import proofs.«423263_j68539088109776_1_alg».proof.Defs
import proofs.«423263_j68539088109776_1_alg».proof.Proof.Gen.Kernel
import proofs.«423263_j68539088109776_1_alg».proof.Proof.Gen.Kernel.Skeleton
import proofs.«423263_j68539088109776_1_alg».proof.Proof.Gen.Kernel.Launch
import proofs.«423263_j68539088109776_1_alg».proof.Proof.Gen.Kernel.Points
import proofs.«423263_j68539088109776_1_alg».proof.Proof.Gen.Kernel.Frame
import proofs.«423263_j68539088109776_1_alg».proof.Proof.Gen.KernelIdeal
import proofs.«423263_j68539088109776_1_alg».proof.Proof.Gen.KernelIdeal.Skeleton
import proofs.«423263_j68539088109776_1_alg».proof.Proof.Gen.KernelIdeal.Launch
import proofs.«423263_j68539088109776_1_alg».proof.Proof.Gen.KernelIdeal.Points
import proofs.«423263_j68539088109776_1_alg».proof.Proof.Gen.KernelIdeal.Frame
import proofs.«423263_j68539088109776_1_alg».proof.Proof.Gen.KernelIdeal.Value
import proofs.«423263_j68539088109776_1_alg».proof.Proof.Gen.ReferenceIdeal
import proofs.«423263_j68539088109776_1_alg».proof.Proof.Gen.Pre_finite_inputs
import proofs.«423263_j68539088109776_1_alg».proof.Proof.KFinal
import proofs.«423263_j68539088109776_1_alg».proof.Proof.RefRead
import proofs.«423263_j68539088109776_1_alg».proof.Proof.Algebra
import proofs.«423263_j68539088109776_1_alg».proof.Proof.PreFacts
import Idealize.ShloMosaic.Adequacy
import Idealize.ShloMosaic.Init

noncomputable section

namespace Cert.Proof

open Idealize.ShloMosaic Idealize.SL.Sem Cert.Loftq

/-- The kernel as printed runs and leaves its arguments as they were. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- At the exact values both programs end with the layer's output: the kernel's array in the arrangement that adds the
    two weights first, the reference's in the arrangement with two matrix products, equal where every float entry is
    real and every code is below 16 — which the precondition says. -/
theorem algebraic : Cert.algebraic_KernelIdeal_ReferenceIdeal := by
  intro m ρ m' ρ' hpre hagree
  have hf := fun c => facts_of_pre _ _ _ _ _ _ (hpre c)
  refine ⟨fun c => Cert.KernelIdeal.Final.out m c, Cert.KernelIdeal.Final.run m ρ (fun c => (hf c).2.1), ?_⟩
  refine (θ_run Cert.ReferenceIdeal.defs _ _).mono (fun _ h c => ⟨(h c).1.trans ?_, (h c).2⟩)
    (Cert.ReferenceIdeal.RefValue.run (F := Ideal) m' ρ')
  obtain ⟨hx, hq, hs, hA, hB⟩ := hf c
  rw [(hagree c).1, (hagree c).2.1, (hagree c).2.2.1, (hagree c).2.2.2.1, (hagree c).2.2.2.2.1, (hagree c).2.2.2.2.2]
  exact (refTerm_eq_split _ _ _ _ _ _ hq).trans (split_eq_fused _ _ _ _ _ _ hx hs hA hB)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
